-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64x128 : Shape := ⟨3, ![1024, 64, 128]⟩
abbrev S128x128 : Shape := ⟨2, ![128, 128]⟩
abbrev S_ : Shape := ⟨0, ![]⟩

class Facts : Prop where
  bcast_S_S1024x64x128 : S_.BroadcastsInDim S1024x64x128 (![] : Fin 0 → Fin S1024x64x128.rank)
  reducesTo_S1024x64x128_S_d0_1_2 : S1024x64x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S1024x64x128 .f32) (main_arg1 : FVec F S128x128 .f32) : IVec S_ 1 :=
  let main_v0 : FVec F S1024x64x128 .f32 := Host.absf main_arg0
  let main_cst : FVec F S_ .f32 := constant S_ .f32 0x7F800000#32
  let main_v1 : FVec F S1024x64x128 .f32 := broadcastInDim S1024x64x128 ![] bcast_S_S1024x64x128 main_cst
  let main_v2 : IVec S1024x64x128 1 := cmpf .olt main_v0 main_v1
  let main_c : IVec S_ 1 := constantI S_ 1 1#1
  let main_v3 : IVec S_ 1 := (fun x v => Host.reduce IntOp.andi x v reducesTo_S1024x64x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S1024x64x128 : Shape := ⟨3, ![1024, 64, 128]⟩
abbrev S128x128 : Shape := ⟨2, ![128, 128]⟩
abbrev S64x64x1024 : Shape := ⟨3, ![64, 64, 1024]⟩
abbrev S128x64x128 : Shape := ⟨3, ![128, 64, 128]⟩
abbrev S64x64x128 : Shape := ⟨3, ![64, 64, 128]⟩
abbrev S8192x128 : Shape := ⟨2, ![8192, 128]⟩
abbrev S128x64x64 : Shape := ⟨3, ![128, 64, 64]⟩
abbrev S128x64 : Shape := ⟨2, ![128, 64]⟩
abbrev S128x64x1 : Shape := ⟨3, ![128, 64, 1]⟩
abbrev S128x1x64 : Shape := ⟨3, ![128, 1, 64]⟩
abbrev S128x4096 : Shape := ⟨2, ![128, 4096]⟩
abbrev S4096x128 : Shape := ⟨2, ![4096, 128]⟩
abbrev S1024x64x64 : Shape := ⟨3, ![1024, 64, 64]⟩

abbrev nBuf : Space → Nat
  | .hbm => 4
  | .vmem => 5
  | .smem => 0
  | _ => 0

abbrev bufTy : (tb : Table) → Fin (tcTables nBuf tb) → BufTy
  | .hbm, ⟨0, _⟩ => ⟨S1024x64x128, .f32⟩
  | .hbm, ⟨1, _⟩ => ⟨S128x128, .f32⟩
  | .hbm, ⟨2, _⟩ => ⟨S64x64x1024, .f32⟩
  | .hbm, ⟨3, _⟩ => ⟨S1024x64x64, .f32⟩
  | .local _ .vmem, ⟨0, _⟩ => ⟨S128x64x128, .f32⟩
  | .local _ .vmem, ⟨1, _⟩ => ⟨S128x64x128, .f32⟩
  | .local _ .vmem, ⟨2, _⟩ => ⟨S128x128, .f32⟩
  | .local _ .vmem, ⟨3, _⟩ => ⟨S64x64x128, .f32⟩
  | .local _ .vmem, ⟨4, _⟩ => ⟨S64x64x128, .f32⟩
  | _, _ => ⟨S1024x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

abbrev stage0_0 : Fin 2 → Memref sig .tc .vmem S128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S64x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S128x64x128_S128x64x128_0_0_0 : ∀ a, (![0, 0, 0] : Fin 3 → Nat) a + S128x64x128.size a ≤ S128x64x128.size a
  h_S128x64x128 : 0 < S128x64x128.numel
  inb_S128x128_S128x128_0_0 : ∀ a, (![0, 0] : Fin 2 → Nat) a + S128x128.size a ≤ S128x128.size a
  h_S128x128 : 0 < S128x128.numel
  shapeCasts_S128x64x128_S8192x128 : S128x64x128.ShapeCasts S8192x128
  shapeCasts_S8192x128_S128x64x128 : S8192x128.ShapeCasts S128x64x128
  reduces_S128x64x128_S128x64 : S128x64x128.Reduces [2] S128x64
  shapeCasts_S128x64_S128x64x1 : S128x64.ShapeCasts S128x64x1
  shapeCasts_S128x64_S128x1x64 : S128x64.ShapeCasts S128x1x64
  broadcasts_S128x64x1_S128x64x64 : S128x64x1.Broadcasts S128x64x64
  broadcasts_S128x1x64_S128x64x64 : S128x1x64.Broadcasts S128x64x64
  iota_S128x128_d0_w32 : S128x128.Iotas .tc 32 [0]
  iota_S128x128_d1_w32 : S128x128.Iotas .tc 32 [1]
  natLt_1_32 : 1 < 32
  shapeCasts_S128x64x64_S128x4096 : S128x64x64.ShapeCasts S128x4096
  shapeCasts_S4096x128_S64x64x128 : S4096x128.ShapeCasts S64x64x128
  inb_S64x64x128_S64x64x128_0_0_0 : ∀ a, (![0, 0, 0] : Fin 3 → Nat) a + S64x64x128.size a ≤ S64x64x128.size a
  h_S64x64x128 : 0 < S64x64x128.numel
  transposes_S64x64x1024_S1024x64x64_2_0_1 : S64x64x1024.Transposes [2, 0, 1] S1024x64x64
  dot_S8192x128_S128x128_S8192x128_1_0_0_1_n_n_wf : DotDims.WF S8192x128 S128x128 S8192x128 [1] [0] [0] [1] [] []
  dot_S128x64x128_S128x64x128_S128x64x64_2_2_1_1_0_0_wf : DotDims.WF S128x64x128 S128x64x128 S128x64x64 [2] [2] [1] [1] [0] [0]
  dot_S128x4096_S128x128_S4096x128_0_0_1_1_n_n_wf : DotDims.WF S128x4096 S128x128 S4096x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x128.size a ≤ S1024x64x128.size a
  hwx0_0 : ∀ i : grid0.Coords, EltTy.bits .f32 = 32 ∨ (Rect.block (s := S1024x64x128) S128x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x64x128.size a ≤ S64x64x1024.size a
  hwx0_2 : ∀ i : grid0.Coords, EltTy.bits .f32 = 32 ∨ (Rect.block (s := S64x64x1024) S64x64x128.size (cc0_transform_2 i) (hinb0_2 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S128x64x128_S128x64x128_S128x64x64_2_2_1_1_0_0 : DotDims S128x64x128 S128x64x128 S128x64x64 where
  lhsContracting := [2]
  rhsContracting := [2]
  lhsNonContracting := [1]
  rhsNonContracting := [1]
  lhsBatch := [0]
  rhsBatch := [0]
  wf := dot_S128x64x128_S128x64x128_S128x64x64_2_2_1_1_0_0_wf
def dot_S128x4096_S128x128_S4096x128_0_0_1_1_n_n : DotDims S128x4096 S128x128 S4096x128 where
  lhsContracting := [0]
  rhsContracting := [0]
  lhsNonContracting := [1]
  rhsNonContracting := [1]
  lhsBatch := []
  rhsBatch := []
  wf := dot_S128x4096_S128x128_S4096x128_0_0_1_1_n_n_wf

abbrev win0_0 : Pipeline.Window sig grid0 :=
  Pipeline.Window.ofSpec (Memref.whole main_arg0) S128x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x64x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x64x128 : Shape := ⟨3, ![1024, 64, 128]⟩
abbrev S128x128 : Shape := ⟨2, ![128, 128]⟩
abbrev S_ : Shape := ⟨0, ![]⟩
abbrev S1026x64x128 : Shape := ⟨3, ![1026, 64, 128]⟩
abbrev S342x1x12288 : Shape := ⟨3, ![342, 1, 12288]⟩
abbrev S3x64x128 : Shape := ⟨3, ![3, 64, 128]⟩
abbrev S1x1x12288 : Shape := ⟨3, ![1, 1, 12288]⟩
abbrev S192x128 : Shape := ⟨2, ![192, 128]⟩
abbrev S3x64x1x128 : Shape := ⟨4, ![3, 64, 1, 128]⟩
abbrev S3x1x64x128 : Shape := ⟨4, ![3, 1, 64, 128]⟩
abbrev S3x64x64x128 : Shape := ⟨4, ![3, 64, 64, 128]⟩
abbrev S3x64x64 : Shape := ⟨3, ![3, 64, 64]⟩
abbrev S1026x64x64 : Shape := ⟨3, ![1026, 64, 64]⟩
abbrev S1024x64x64 : Shape := ⟨3, ![1024, 64, 64]⟩

abbrev nBuf : Space → Nat
  | .hbm => 8
  | .vmem => 5
  | .smem => 0
  | _ => 0

abbrev bufTy : (tb : Table) → Fin (tcTables nBuf tb) → BufTy
  | .hbm, ⟨0, _⟩ => ⟨S1024x64x128, .f32⟩
  | .hbm, ⟨1, _⟩ => ⟨S128x128, .f32⟩
  | .hbm, ⟨2, _⟩ => ⟨S_, .i32⟩
  | .hbm, ⟨3, _⟩ => ⟨S_, .f32⟩
  | .hbm, ⟨4, _⟩ => ⟨S1026x64x128, .f32⟩
  | .hbm, ⟨5, _⟩ => ⟨S342x1x12288, .f32⟩
  | .hbm, ⟨6, _⟩ => ⟨S1026x64x64, .f32⟩
  | .hbm, ⟨7, _⟩ => ⟨S1024x64x64, .f32⟩
  | .local _ .vmem, ⟨0, _⟩ => ⟨S3x64x128, .f32⟩
  | .local _ .vmem, ⟨1, _⟩ => ⟨S3x64x128, .f32⟩
  | .local _ .vmem, ⟨2, _⟩ => ⟨S128x128, .f32⟩
  | .local _ .vmem, ⟨3, _⟩ => ⟨S1x1x12288, .f32⟩
  | .local _ .vmem, ⟨4, _⟩ => ⟨S1x1x12288, .f32⟩
  | _, _ => ⟨S1024x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![342], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x12288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S1024x64x128_S1026x64x128_020_000_000 : S1024x64x128.Pads (![0, 0, 0] : Fin 3 → Nat) ![2, 0, 0] ![0, 0, 0] S1026x64x128
  h_S_ : 0 < S_.numel
  inb_S3x64x128_S3x64x128_0_0_0 : ∀ a, (![0, 0, 0] : Fin 3 → Nat) a + S3x64x128.size a ≤ S3x64x128.size a
  h_S3x64x128 : 0 < S3x64x128.numel
  shapeCasts_S3x64x128_S3x64x128 : S3x64x128.ShapeCasts S3x64x128
  inb_S128x128_S128x128_0_0 : ∀ a, (![0, 0] : Fin 2 → Nat) a + S128x128.size a ≤ S128x128.size a
  h_S128x128 : 0 < S128x128.numel
  shapeCasts_S3x64x128_S192x128 : S3x64x128.ShapeCasts S192x128
  shapeCasts_S192x128_S3x64x128 : S192x128.ShapeCasts S3x64x128
  shapeCasts_S3x64x128_S3x64x1x128 : S3x64x128.ShapeCasts S3x64x1x128
  shapeCasts_S3x64x128_S3x1x64x128 : S3x64x128.ShapeCasts S3x1x64x128
  broadcasts_S3x64x1x128_S3x64x64x128 : S3x64x1x128.Broadcasts S3x64x64x128
  broadcasts_S3x1x64x128_S3x64x64x128 : S3x1x64x128.Broadcasts S3x64x64x128
  reduces_S3x64x64x128_S3x64x64 : S3x64x64x128.Reduces [3] S3x64x64
  shapeCasts_S3x64x64_S1x1x12288 : S3x64x64.ShapeCasts S1x1x12288
  inb_S1x1x12288_S1x1x12288_0_0_0 : ∀ a, (![0, 0, 0] : Fin 3 → Nat) a + S1x1x12288.size a ≤ S1x1x12288.size a
  h_S1x1x12288 : 0 < S1x1x12288.numel
  shapeCasts_S342x1x12288_S1026x64x64 : S342x1x12288.ShapeCasts S1026x64x64
  slices_S1026x64x64_S1024x64x64_0_0_0 : S1026x64x64.Slices ![0, 0, 0] S1024x64x64
  dot_S192x128_S128x128_S192x128_1_0_0_1_n_n_wf : DotDims.WF S192x128 S128x128 S192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x64x128.size a ≤ S1026x64x128.size a
  hwx0_0 : ∀ i : grid0.Coords, EltTy.bits .f32 = 32 ∨ (Rect.block (s := S1026x64x128) S3x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x12288.size a ≤ S342x1x12288.size a
  hwx0_2 : ∀ i : grid0.Coords, EltTy.bits .f32 = 32 ∨ (Rect.block (s := S342x1x12288) S1x1x12288.size (cc0_transform_2 i) (hinb0_2 i)).WholeWords (EltTy.packing .f32)

variable [Facts₀]

def dot_S192x128_S128x128_S192x128_1_0_0_1_n_n : DotDims S192x128 S128x128 S192x128 where
  lhsContracting := [1]
  rhsContracting := [0]
  lhsNonContracting := [0]
  rhsNonContracting := [1]
  lhsBatch := []
  rhsBatch := []
  wf := dot_S192x128_S128x128_S192x128_1_0_0_1_n_n_wf

abbrev win0_0 : Pipeline.Window sig grid0 :=
  Pipeline.Window.ofSpec (Memref.whole main_v0) S3x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x12288.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.Spec.lean ====
/-
  The mathematics shared by the two programs, with no program in sight.

  Both programs take sentences X[b, i, l] and weights W[l, r] and return, for every sentence b and every pair of
  tokens (i, j), the Euclidean distance between the squashed projections of tokens i and j:

      L[b,i,l] = log (|X[b,i,l]| + 1)                      (log-normalisation)
      P[b,i,r] = Σ_l L[b,i,l] · W[l,r]                     (projection)
      S[b,i,r] = σ (P[b,i,r])                              (squashing to (0, 1))
      D[b,i,j] = √ (Σ_r (S[b,i,r] − S[b,j,r])²)            (pairwise distance)

  The reference computes exactly this, with σ the logistic function 1 / (1 + e^(−p)).  The kernel writes
  σ as 1/2 + 1/2 · tanh (p / 2), expands the squared distance through the Gram matrix,
  |S_i|² + |S_j|² − 2 S_i·S_j, moves the sentence axis to the last place by multiplying with a 0/1 identity
  matrix, and clamps at zero before the root.  Over the reals these are the same number: the tanh form of the
  logistic function is an identity, the Gram expansion is the binomial formula summed over r, a sum against a
  row of the identity matrix picks one term, and a sum of squares is never negative, so the clamp is idle.
  All of this needs the entries to be REAL (on the extended reals 0 · ∞ and ∞ − ∞ break each step), which is
  what finiteness of the inputs provides: the logarithm of |x| + 1 ≥ 1 is real, a finite sum of real products is
  real, and both squashings of a real are real.
-/
import Idealize.ShloMosaic.PureOps.Ideal
import Idealize.ShloMosaic.PureOps.Ideal.Laws
import Idealize.ShloMosaic.Lib.ValueIdx

noncomputable section

namespace Cert.PairDist

open Idealize.ShloMosaic Idealize.ShloMosaic.ValueIdx
open scoped BigOperators

/-- The four float literals the bodies splat: 1, 1/2, 2 and 0, as the words the programs print. -/
abbrev one32 : EReal := Ideal.ofBits .f32 0x3F800000#32
abbrev half32 : EReal := Ideal.ofBits .f32 0x3F000000#32
abbrev two32 : EReal := Ideal.ofBits .f32 0x40000000#32
abbrev zero32 : EReal := Ideal.ofBits .f32 0x00000000#32

/-- Log-normalisation of one entry: log (|x| + 1). -/
def lognorm (x : EReal) : EReal := Ideal.log (max x (-x) + one32)

/-- One token's projection onto output feature r: Σ_l log (|s_l| + 1) · w[l, r]. -/
def proj (s : Fin 128 → EReal) (w : Fin 128 → Fin 128 → EReal) (r : Fin 128) : EReal :=
  ∑ l : Fin 128, lognorm (s l) * w l r

/-- The kernel's squashing: 1/2 + 1/2 · tanh (1/2 · p). -/
def squashT (p : EReal) : EReal := half32 + half32 * Ideal.tanh (half32 * p)

/-- The reference's squashing: the logistic function. -/
def squashL (p : EReal) : EReal := Ideal.logistic p

/-- The reference's distance between two squashed rows: √ Σ_r (a_r − b_r)². -/
def diffDist (a b : Fin 128 → EReal) : EReal := Ideal.sqrt (∑ r : Fin 128, (a r - b r) * (a r - b r))

/-- The kernel's squared distance through the Gram matrix: |a|² + |b|² − 2 a·b. -/
def gramSq (a b : Fin 128 → EReal) : EReal :=
  ((∑ r : Fin 128, a r * a r) + (∑ r : Fin 128, b r * b r)) - two32 * (∑ r : Fin 128, a r * b r)

/-- What the reference leaves for one pair of tokens of one sentence. -/
def pairDist (si sj : Fin 128 → EReal) (w : Fin 128 → Fin 128 → EReal) : EReal :=
  diffDist (fun r => squashL (proj si w r)) (fun r => squashL (proj sj w r))

/-- What the kernel leaves at (i, j, b) of a block of 128 sentences S: the Gram-form squared distances of ALL the
    block's sentences at (i, j), summed against column b of the identity matrix, clamped at zero, rooted. -/
def gramDist (S : Fin 128 → Fin 64 → Fin 128 → EReal) (w : Fin 128 → Fin 128 → EReal) (i j : Fin 64) (b : Fin 128) : EReal :=
  Ideal.sqrt (max (∑ b' : Fin 128,
      gramSq (fun r => squashT (proj (S b' i) w r)) (fun r => squashT (proj (S b' j) w r)) * (if b' = b then (1 : EReal) else 0))
    zero32)

/-! ### The four literals as numbers -/

/-- The word 0x3F800000 is the number 1. -/
theorem one32_eq : one32 = ((1 : ℝ) : EReal) := by
  show Ideal.ofBits .f32 0x3F800000#32 = _
  simp [Ideal.ofBits, Ideal.ieee, -EReal.coe_mul]
  norm_num

/-- The word 0x3F000000 is the number 1/2. -/
theorem half32_eq : half32 = ((1 / 2 : ℝ) : EReal) := by
  show Ideal.ofBits .f32 0x3F000000#32 = _
  simp [Ideal.ofBits, Ideal.ieee, -EReal.coe_mul]
  norm_num

/-- The word 0x40000000 is the number 2. -/
theorem two32_eq : two32 = ((2 : ℝ) : EReal) := by
  show Ideal.ofBits .f32 0x40000000#32 = _
  simp [Ideal.ofBits, Ideal.ieee, -EReal.coe_mul]
  norm_num

/-- The word 0x00000000 is the number 0. -/
theorem zero32_eq : zero32 = 0 := Ideal.ofBits_zero_f32

/-! ### Sums -/

/-- A sum against column b of the identity matrix picks the term at b; this holds on all extended reals,
    since x · 0 = 0 and x · 1 = x there. -/
theorem sum_pick (f : Fin 128 → EReal) (b : Fin 128) :
    ∑ b' : Fin 128, f b' * (if b' = b then (1 : EReal) else 0) = f b := by
  simp only [mul_ite, mul_one, mul_zero]
  rw [Finset.sum_ite_eq']
  simp

/-- The coercion of a finite sum of reals is the sum of the coercions. -/
theorem coe_sum {ι : Type} (s : Finset ι) (f : ι → ℝ) :
    ((∑ k ∈ s, f k : ℝ) : EReal) = ∑ k ∈ s, (f k : EReal) := by
  classical
  refine Finset.induction_on s (by simp) ?_
  intro a s ha ih
  rw [Finset.sum_insert ha, Finset.sum_insert ha, EReal.coe_add, ih]

/-- A sum of products of coerced reals is the coercion of the real sum of products. -/
theorem sum_mul_coe (a c : Fin 128 → ℝ) :
    ∑ r : Fin 128, (a r : EReal) * (c r : EReal) = ((∑ r : Fin 128, a r * c r : ℝ) : EReal) := by
  rw [coe_sum]
  exact Finset.sum_congr rfl fun r _ => (EReal.coe_mul _ _).symm

/-! ### Log-normalisation and projection of real entries are real -/

/-- On a real x the log-normalisation is the real log (|x| + 1): the maximum of x and −x is |x|, and |x| + 1 > 0. -/
theorem lognorm_coe (x : ℝ) : lognorm (x : EReal) = ((Real.log (|x| + 1) : ℝ) : EReal) := by
  have hmax : max (x : EReal) (-(x : EReal)) = ((|x| : ℝ) : EReal) := by
    rw [abs_eq_max_neg, EReal.coe_strictMono.monotone.map_max, EReal.coe_neg]
  have hpos : ¬ (|x| + 1 ≤ 0) := not_le.mpr (by positivity)
  unfold lognorm
  rw [hmax, one32_eq, ← EReal.coe_add, Ideal.log_coe, if_neg hpos]

/-- The projection of a real row through real weights is the real sum Σ_l log (|x_l| + 1) · v[l, r]. -/
theorem proj_coe (x : Fin 128 → ℝ) (v : Fin 128 → Fin 128 → ℝ) (r : Fin 128) :
    proj (fun l => (x l : EReal)) (fun l r => (v l r : EReal)) r
      = ((∑ l : Fin 128, Real.log (|x l| + 1) * v l r : ℝ) : EReal) := by
  unfold proj
  rw [coe_sum]
  refine Finset.sum_congr rfl fun l _ => ?_
  show lognorm (x l : EReal) * (v l r : EReal) = _
  rw [lognorm_coe, ← EReal.coe_mul]

/-! ### The two squashings agree on a real -/

/-- Over the reals 1/2 + 1/2 · tanh (p/2) = 1 / (1 + e^(−p)). -/
theorem real_squash (p : ℝ) : 1 / 2 + 1 / 2 * Real.tanh (1 / 2 * p) = (1 + Real.exp (-p))⁻¹ := by
  have h1 : Real.exp p = Real.exp (1 / 2 * p) * Real.exp (1 / 2 * p) := by
    rw [← Real.exp_add]; congr 1; ring
  have h2 : Real.exp (-(1 / 2 * p)) = (Real.exp (1 / 2 * p))⁻¹ := Real.exp_neg _
  have h3 : Real.exp (-p) = (Real.exp p)⁻¹ := Real.exp_neg _
  have hpos : 0 < Real.exp (1 / 2 * p) := Real.exp_pos _
  rw [Real.tanh_eq_sinh_div_cosh, Real.sinh_eq, Real.cosh_eq, h3, h1, h2]
  generalize Real.exp (1 / 2 * p) = e at hpos
  have he : e ≠ 0 := hpos.ne'
  have h4 : e * e + 1 ≠ 0 := by positivity
  field_simp
  ring

/-- The kernel's squashing of a real p is the real 1 / (1 + e^(−p)). -/
theorem squashT_coe (p : ℝ) : squashT (p : EReal) = (((1 + Real.exp (-p))⁻¹ : ℝ) : EReal) := by
  unfold squashT
  rw [half32_eq, ← EReal.coe_mul, Ideal.tanh_coe, ← EReal.coe_mul, ← EReal.coe_add, real_squash]

/-- The reference's squashing of a real p is the same real. -/
theorem squashL_coe (p : ℝ) : squashL (p : EReal) = (((1 + Real.exp (-p))⁻¹ : ℝ) : EReal) :=
  Ideal.logistic_coe p

/-! ### The Gram form and the difference form of the squared distance of real vectors -/

/-- The Gram form of real vectors is the coercion of Σ_r (a_r − c_r)²: the binomial formula summed over r. -/
theorem gramSq_coe (a c : Fin 128 → ℝ) :
    gramSq (fun r => (a r : EReal)) (fun r => (c r : EReal))
      = ((∑ r : Fin 128, (a r - c r) * (a r - c r) : ℝ) : EReal) := by
  show ((∑ r : Fin 128, (a r : EReal) * (a r : EReal)) + (∑ r : Fin 128, (c r : EReal) * (c r : EReal)))
      - two32 * (∑ r : Fin 128, (a r : EReal) * (c r : EReal)) = _
  rw [sum_mul_coe, sum_mul_coe, sum_mul_coe, two32_eq, ← EReal.coe_mul, ← EReal.coe_add, ← EReal.coe_sub]
  congr 1
  rw [Finset.mul_sum, ← Finset.sum_add_distrib, ← Finset.sum_sub_distrib]
  exact Finset.sum_congr rfl fun r _ => by ring

/-- The difference form of real vectors is the coercion of the same real sum. -/
theorem diffSq_coe (a c : Fin 128 → ℝ) :
    ∑ r : Fin 128, ((a r : EReal) - (c r : EReal)) * ((a r : EReal) - (c r : EReal))
      = ((∑ r : Fin 128, (a r - c r) * (a r - c r) : ℝ) : EReal) := by
  rw [coe_sum]
  exact Finset.sum_congr rfl fun r _ => by rw [← EReal.coe_sub, ← EReal.coe_mul]

/-- A real sum of squares is not negative, so clamping it at zero does nothing. -/
theorem clamp_idle (a c : Fin 128 → ℝ) :
    max ((∑ r : Fin 128, (a r - c r) * (a r - c r) : ℝ) : EReal) zero32
      = ((∑ r : Fin 128, (a r - c r) * (a r - c r) : ℝ) : EReal) := by
  rw [zero32_eq]
  exact max_eq_left (EReal.coe_nonneg.mpr (Finset.sum_nonneg fun r _ => mul_self_nonneg _))

/-- The law on coerced real arrays. -/
theorem gramDist_eq_coe (x : Fin 128 → Fin 64 → Fin 128 → ℝ) (v : Fin 128 → Fin 128 → ℝ)
    (i j : Fin 64) (b : Fin 128) :
    gramDist (fun b a l => (x b a l : EReal)) (fun l r => (v l r : EReal)) i j b
      = pairDist (fun l => (x b i l : EReal)) (fun l => (x b j l : EReal)) (fun l r => (v l r : EReal)) := by
  -- q b' a r is the squashed projection of token a of sentence b' at feature r, a real number
  let q : Fin 128 → Fin 64 → Fin 128 → ℝ := fun b' a r =>
    (1 + Real.exp (-(∑ l : Fin 128, Real.log (|x b' a l| + 1) * v l r)))⁻¹
  have hT : ∀ b' a r, squashT (proj (fun l => (x b' a l : EReal)) (fun l r => (v l r : EReal)) r)
      = ((q b' a r : ℝ) : EReal) := by
    intro b' a r; rw [proj_coe, squashT_coe]
  have hL : ∀ b' a r, squashL (proj (fun l => (x b' a l : EReal)) (fun l r => (v l r : EReal)) r)
      = ((q b' a r : ℝ) : EReal) := by
    intro b' a r; rw [proj_coe, squashL_coe]
  show Ideal.sqrt (max (∑ b' : Fin 128,
      gramSq (fun r => squashT (proj (fun l => (x b' i l : EReal)) (fun l r => (v l r : EReal)) r))
        (fun r => squashT (proj (fun l => (x b' j l : EReal)) (fun l r => (v l r : EReal)) r))
        * (if b' = b then (1 : EReal) else 0)) zero32)
    = Ideal.sqrt (∑ r : Fin 128,
        (squashL (proj (fun l => (x b i l : EReal)) (fun l r => (v l r : EReal)) r)
          - squashL (proj (fun l => (x b j l : EReal)) (fun l r => (v l r : EReal)) r))
        * (squashL (proj (fun l => (x b i l : EReal)) (fun l r => (v l r : EReal)) r)
          - squashL (proj (fun l => (x b j l : EReal)) (fun l r => (v l r : EReal)) r)))
  simp only [hT, hL]
  rw [sum_pick (fun b' => gramSq (fun r => ((q b' i r : ℝ) : EReal)) (fun r => ((q b' j r : ℝ) : EReal))) b,
    gramSq_coe, diffSq_coe, clamp_idle]

/-- THE LAW that joins the two programs: on real entries the kernel's entry is the reference's. -/
theorem gramDist_eq (S : Fin 128 → Fin 64 → Fin 128 → EReal) (w : Fin 128 → Fin 128 → EReal)
    (hS : ∀ b a l, ∃ x : ℝ, S b a l = (x : EReal)) (hw : ∀ l r, ∃ x : ℝ, w l r = (x : EReal))
    (i j : Fin 64) (b : Fin 128) :
    gramDist S w i j b = pairDist (S b i) (S b j) w := by
  choose x hx using hS
  choose v hv using hw
  have hS' : S = fun b a l => (x b a l : EReal) := by funext b a l; exact hx b a l
  have hw' : w = fun l r => (v l r : EReal) := by funext l r; exact hv l r
  subst hS' hw'
  exact gramDist_eq_coe x v i j b

/-- The result of both programs as ONE function of the two argument arrays: entry (b, i, j) is the distance between
    tokens i and j of sentence b. -/
def Gat (X : (⟨3, ![1024, 64, 128]⟩ : Shape).Idx → EReal) (W : (⟨2, ![128, 128]⟩ : Shape).Idx → EReal)
    (b : Fin 1024) (i j : Fin 64) : EReal :=
  pairDist (fun l => X (ix3 b i l)) (fun l => X (ix3 b j l)) (fun l r => W (ix2 l r))

def G (X : (⟨3, ![1024, 64, 128]⟩ : Shape).Idx → EReal) (W : (⟨2, ![128, 128]⟩ : Shape).Idx → EReal) :
    (⟨3, ![1024, 64, 64]⟩ : Shape).Idx → EReal :=
  fun o => Gat X W (o 0) (o 1) (o 2)

theorem G_apply (X : (⟨3, ![1024, 64, 128]⟩ : Shape).Idx → EReal) (W : (⟨2, ![128, 128]⟩ : Shape).Idx → EReal)
    (b : Fin 1024) (i j : Fin 64) : G X W (ix3 b i j) = Gat X W b i j := rfl

end Cert.PairDist

end
-- ==== Proof.Finite.lean ====
/-
  Finiteness: the precondition says that every entry of both inputs has |x| < +∞ (a conjunction of two
  all-reductions of such comparisons); on the extended reals that leaves exactly the reals.
-/
import proofs.«139934_g2000303751998475_pallasbulk_1269_22_alg».proof.Pre_finite_inputs
import proofs.«139934_g2000303751998475_pallasbulk_1269_22_alg».proof.Proof.Gen.Pre_finite_inputs
import Idealize.ShloMosaic.PureOps.Ideal
import Idealize.ShloMosaic.Lib.ReduceAll
import Idealize.ShloMosaic.Lib.ValueIdx

noncomputable section

namespace Cert.Finite

open Idealize.ShloMosaic Idealize.ShloMosaic.ValueIdx Cert.Pre_finite_inputs

/-- The shape of rank 0 has exactly one index (an index is a function out of the empty set of axes). -/
instance subsingleton_scalar_idx : Subsingleton S_.Idx := ⟨fun a b => funext fun d => d.elim0⟩

/-- The f32 pattern `0x7F800000` (sign 0, exponent all ones, significand 0) denotes `+∞`. -/
theorem ofBits_inf : Ideal.ofBits .f32 0x7F800000#32 = (⊤ : EReal) := by
  simp [Ideal.ofBits, Ideal.ieee]

/-- An extended real whose absolute value `max x (-x)` lies strictly below `+∞` is a real:
    `⊤` fails on the left operand of the maximum, `⊥` on the right one (`-⊥ = ⊤`). -/
theorem real_of_abs_lt_top (x : EReal) (hx : max x (-x) < ⊤) : ∃ r : ℝ, x = (r : EReal) := by
  induction x using EReal.rec with
  | bot => exact absurd hx (by simp)
  | coe r => exact ⟨r, rfl⟩
  | top => exact absurd hx (by simp)

/-- One element of the compared array: the word of `|x| < +∞` being 1 says `x` is a real. The absolute
    value at the ideal instance is `max x (-x)`, the comparison is the order's, the bound is `+∞`. -/
theorem real_of_cmp_one (x : Ideal .f32)
    (e : FloatOps.cmpf .olt (FloatOps.hostAbsf x) (FloatOps.ofBits (F := Ideal) .f32 0x7F800000#32) = 1#1) :
    ∃ r : ℝ, x = (r : EReal) := by
  have e' : Ideal.cmp .olt (max (x : EReal) (-(x : EReal))) (Ideal.ofBits .f32 0x7F800000#32) = 1#1 := e
  rw [ofBits_inf] at e'
  unfold Ideal.cmp at e'
  by_cases hlt : max (x : EReal) (-(x : EReal)) < ⊤
  · exact real_of_abs_lt_top x hlt
  · simp [hlt] at e'

/-- Under the precondition every entry of the sentences and of the weights is a real number. -/
theorem real_of_pre (a0 : FVec Ideal S1024x64x128 .f32) (a1 : FVec Ideal S128x128 .f32)
    (h : Cert.Pre_finite_inputs.fn (F := Ideal) a0 a1 = fun _ => 1#1) :
    (∀ i, ∃ x : ℝ, a0 i = (x : EReal)) ∧ (∀ i, ∃ x : ℝ, a1 i = (x : EReal)) := by
  -- the one index of the rank-0 result; the result there is the `and` of the two all-reductions
  have h0 := congrFun h ValueIdx.ix0
  dsimp only [Cert.Pre_finite_inputs.fn] at h0
  obtain ⟨h1, h2⟩ := IntOp.andi_eq_one.1 h0
  refine ⟨fun i => ?_, fun i => ?_⟩
  · -- an all-reduction by `and` that is 1 met a 1 at every index of the compared array
    have e := Host.reduce_andi_all _ _ _ _ _ h1 i
    exact real_of_cmp_one (a0 i) e
  · have e := Host.reduce_andi_all _ _ _ _ _ h2 i
    exact real_of_cmp_one (a1 i) e

end Cert.Finite

end
-- ==== Proof.KernelPayA.lean ====
/-
  First stretch of the kernel's body: from the loaded block of sentences and the weights to the squashed projections
  S[b', a, r] = 1/2 + 1/2 · tanh (1/2 · Σ_l log (|x0[b', a, l]| + 1) · x1[l, r]).  The sentences are flattened to 8192
  rows for the product (row b'·64 + a) and cast back afterwards.
-/
import proofs.«139934_g2000303751998475_pallasbulk_1269_22_alg».proof.Proof.Gen.KernelIdeal.Skeleton
import proofs.«139934_g2000303751998475_pallasbulk_1269_22_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-- The dimension numbers of the one product in this stretch: rows of the flattened block against the weights. -/
abbrev dotA := dot_S8192x128_S128x128_S8192x128_1_0_0_1_n_n

/-! ### The product's operand indices, one axis at a time -/

/-- The left operand's row is the result's row. -/
theorem dotA_lhs_row (j : S8192x128.Idx) (k : dotA.contr.Idx) : (dotA.lhsIdx j k 0 : ℕ) = j 0 := by
  simp [DotDims.lhsIdx, dotA, dot_S8192x128_S128x128_S8192x128_1_0_0_1_n_n]; rfl
/-- The left operand's column is the contracted index. -/
theorem dotA_lhs_col (j : S8192x128.Idx) (k : dotA.contr.Idx) : (dotA.lhsIdx j k 1 : ℕ) = k ⟨0, by decide⟩ := by
  simp [DotDims.lhsIdx, dotA, dot_S8192x128_S128x128_S8192x128_1_0_0_1_n_n]; rfl
/-- The right operand's row is the contracted index. -/
theorem dotA_rhs_row (j : S8192x128.Idx) (k : dotA.contr.Idx) : (dotA.rhsIdx j k 0 : ℕ) = k ⟨0, by decide⟩ := by
  simp [DotDims.rhsIdx, dotA, dot_S8192x128_S128x128_S8192x128_1_0_0_1_n_n]; rfl
/-- The right operand's column is the result's column. -/
theorem dotA_rhs_col (j : S8192x128.Idx) (k : dotA.contr.Idx) : (dotA.rhsIdx j k 1 : ℕ) = j 1 := by
  simp [DotDims.rhsIdx, dotA, dot_S8192x128_S128x128_S8192x128_1_0_0_1_n_n]; rfl

/-- The contracted axis has 128 positions. -/
def dotA_contr : dotA.contr.Idx ≃ Fin 128 := contrEquiv1 dotA 128 rfl rfl

theorem dotA_lhsIdx (i : Fin 8192) (r l : Fin 128) : dotA.lhsIdx (ix2 i r) (dotA_contr.symm l) = ix2 i l := by
  funext d
  match d with
  | ⟨0, _⟩ => exact Fin.ext (dotA_lhs_row _ _)
  | ⟨1, _⟩ => exact Fin.ext ((dotA_lhs_col _ _).trans (contrEquiv1_symm_val dotA 128 rfl rfl l))

theorem dotA_rhsIdx (i : Fin 8192) (r l : Fin 128) : dotA.rhsIdx (ix2 i r) (dotA_contr.symm l) = ix2 l r := by
  funext d
  match d with
  | ⟨0, _⟩ => exact Fin.ext ((dotA_rhs_row _ _).trans (contrEquiv1_symm_val dotA 128 rfl rfl l))
  | ⟨1, _⟩ => exact Fin.ext (dotA_rhs_col _ _)

/-- The product into the zero accumulator, read at row i and column r: Σ_l lhs[i, l] · rhs[l, r]. -/
theorem dotA_apply (lhs : FVec Ideal S8192x128 .f32) (rhs : FVec Ideal S128x128 .f32) (i : Fin 8192) (r : Fin 128) :
    matmul dotA none lhs rhs (constant (F := Ideal) S8192x128 .f32 0x00000000#32) (ix2 i r)
      = ∑ l : Fin 128, lhs (ix2 i l) * rhs (ix2 l r) := by
  show FloatOps.matmul dotA none lhs rhs (constant S8192x128 .f32 0x00000000#32) (ix2 i r) = _
  refine (Ideal.matmul_constant_zero_apply dotA none lhs rhs (ix2 i r)).trans ?_
  refine (Equiv.sum_comp dotA_contr.symm _).symm.trans ?_
  refine Finset.sum_congr rfl fun l _ => ?_
  rw [dotA_lhsIdx, dotA_rhsIdx]

/-! ### The two casts between the block and its flattening -/

/-- Row b'·64 + a of the flattened block is token a of sentence b'. -/
theorem flattenA_apply {α : Type} (v : S128x64x128.Idx → α) (b' : Fin 128) (a : Fin 64) (l : Fin 128) (h : b'.val * 64 + a.val < 8192) :
    shapeCast S8192x128 v shapeCasts_S128x64x128_S8192x128 (ix2 ⟨b'.val * 64 + a.val, h⟩ l) = v (ix3 b' a l) := by
  refine shapeCast_apply v _ _ (ix3 b' a l) ?_
  rw [Shape.rowMajor_val_three, Shape.rowMajor_val_two]
  rfl

/-- Casting back, entry (b', a, r) is row b'·64 + a, column r. -/
theorem unflattenA_apply {α : Type} (w : S8192x128.Idx → α) (b' : Fin 128) (a : Fin 64) (r : Fin 128) (h : b'.val * 64 + a.val < 8192) :
    shapeCast S128x64x128 w shapeCasts_S8192x128_S128x64x128 (ix3 b' a r) = w (ix2 ⟨b'.val * 64 + a.val, h⟩ r) := by
  refine shapeCast_apply w _ _ (ix2 ⟨b'.val * 64 + a.val, h⟩ r) ?_
  rw [Shape.rowMajor_val_three, Shape.rowMajor_val_two]
  rfl

/-- The squashed projections of the block, as the body computes them (at any float instance). -/
def squashed {F : FTy → Type} [FloatOps F] (v0 : Vec F S128x64x128 .f32) (v5 : Vec F S128x128 .f32) : FVec F S128x64x128 .f32 :=
  have v1 : FVec F S128x64x128 .f32 := absf v0
  have cst : F .f32 := Scalar.ofBits .f32 0x3F800000#32
  have v2 : FVec F S128x64x128 .f32 := broadcast S128x64x128 cst
  have v3 : FVec F S128x64x128 .f32 := addf v1 v2
  have v4 : FVec F S128x64x128 .f32 := log v3
  have v6 : FVec F S8192x128 .f32 := shapeCast S8192x128 v4 shapeCasts_S128x64x128_S8192x128
  have cst_4 : FVec F S8192x128 .f32 := constant S8192x128 .f32 0x00000000#32
  have v7 : FVec F S8192x128 .f32 := matmul dot_S8192x128_S128x128_S8192x128_1_0_0_1_n_n none v6 v5 cst_4
  have cst_5 : F .f32 := Scalar.ofBits .f32 0x3F000000#32
  have v8 : FVec F S8192x128 .f32 := broadcast S8192x128 cst_5
  have v9 : FVec F S8192x128 .f32 := mulf v8 v7
  have v10 : FVec F S8192x128 .f32 := tanh v9
  have cst_6 : F .f32 := Scalar.ofBits .f32 0x3F000000#32
  have v11 : FVec F S8192x128 .f32 := broadcast S8192x128 cst_6
  have v12 : FVec F S8192x128 .f32 := mulf v11 v10
  have cst_7 : F .f32 := Scalar.ofBits .f32 0x3F000000#32
  have v13 : FVec F S8192x128 .f32 := broadcast S8192x128 cst_7
  have v14 : FVec F S8192x128 .f32 := addf v13 v12
  have v15 : FVec F S128x64x128 .f32 := shapeCast S128x64x128 v14 shapeCasts_S8192x128_S128x64x128
  v15

/-- Entry (b', a, r) of the squashed projections is the specification's squashing of the specification's projection
    of token a of sentence b'. -/
theorem squashed_apply (x0 : Vec Ideal S128x64x128 .f32) (x1 : Vec Ideal S128x128 .f32) (b' : Fin 128) (a : Fin 64) (r : Fin 128) :
    squashed (F := Ideal) x0 x1 (ix3 b' a r)
      = Cert.PairDist.squashT (Cert.PairDist.proj (fun l => x0 (ix3 b' a l)) (fun l r => x1 (ix2 l r)) r) := by
  have h : b'.val * 64 + a.val < 8192 := by omega
  unfold squashed
  refine (unflattenA_apply _ b' a r h).trans ?_
  unfold Cert.PairDist.squashT Cert.PairDist.proj Cert.PairDist.lognorm
  show Cert.PairDist.half32 + Cert.PairDist.half32 * Ideal.tanh (Cert.PairDist.half32 *
      (matmul dotA none _ x1 (constant (F := Ideal) S8192x128 .f32 0x00000000#32) (ix2 ⟨b'.val * 64 + a.val, h⟩ r))) = _
  refine congrArg (fun p => Cert.PairDist.half32 + Cert.PairDist.half32 * Ideal.tanh (Cert.PairDist.half32 * p)) ?_
  refine (dotA_apply _ x1 ⟨_, h⟩ r).trans ?_
  refine Finset.sum_congr rfl fun l _ => ?_
  refine congrArg (· * x1 (ix2 l r)) ?_
  refine (flattenA_apply _ b' a l h).trans ?_
  rfl

end Cert.KernelIdeal.Pay

end
-- ==== Proof.KernelPayB.lean ====
/-
  Second stretch of the kernel's body: from the squashed projections S[b', a, r] to the Gram-form squared distances
  |S[b',i]|² + |S[b',j]|² − 2 · S[b',i]·S[b',j]: the Gram matrix as a product batched over the sentence and contracted
  over r, the squared norms as a lane sum over r, laid out once as a column and once as a row and broadcast.
-/
import proofs.«139934_g2000303751998475_pallasbulk_1269_22_alg».proof.Proof.Gen.KernelIdeal.Skeleton
import proofs.«139934_g2000303751998475_pallasbulk_1269_22_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-- The Gram-form squared distances of every sentence of the block, as the body computes them. -/
def gramSquares (v15 : FVec Ideal S128x64x128 .f32) : FVec Ideal S128x64x64 .f32 :=
  have cst_8 : FVec Ideal S128x64x64 .f32 := constant S128x64x64 .f32 0x00000000#32
  have v16 : FVec Ideal S128x64x64 .f32 := matmul dot_S128x64x128_S128x64x128_S128x64x64_2_2_1_1_0_0 none v15 v15 cst_8
  have v17 : FVec Ideal S128x64x128 .f32 := mulf v15 v15
  have v18 : FVec Ideal S128x64 .f32 := multiReduction .add [2] S128x64 v17 0x00000000#32 reduces_S128x64x128_S128x64 (.inl rfl) rfl
  have v19 : FVec Ideal S128x64x1 .f32 := shapeCast S128x64x1 v18 shapeCasts_S128x64_S128x64x1
  have v20 : FVec Ideal S128x1x64 .f32 := shapeCast S128x1x64 v18 shapeCasts_S128x64_S128x1x64
  have v21 : FVec Ideal S128x64x64 .f32 := broadcastTo S128x64x64 v19 broadcasts_S128x64x1_S128x64x64
  have v22 : FVec Ideal S128x64x64 .f32 := broadcastTo S128x64x64 v20 broadcasts_S128x1x64_S128x64x64
  have v23 : FVec Ideal S128x64x64 .f32 := addf v21 v22
  have cst_10 : Ideal .f32 := Scalar.ofBits .f32 0x40000000#32
  have v24 : FVec Ideal S128x64x64 .f32 := broadcast S128x64x64 cst_10
  have v25 : FVec Ideal S128x64x64 .f32 := mulf v24 v16
  have v26 : FVec Ideal S128x64x64 .f32 := subf v23 v25
  v26

/-- The Gram product's dimension numbers: both operands contract their lane axis 2, the sentence axis 0 is the batch. -/
abbrev dotB := dot_S128x64x128_S128x64x128_S128x64x64_2_2_1_1_0_0

/-- Left operand, axis 0 (batch): the result's sentence coordinate. -/
theorem dotB_lhs_0 (j : S128x64x64.Idx) (k : dotB.contr.Idx) : (dotB.lhsIdx j k 0 : ℕ) = j 0 := by
  simp [DotDims.lhsIdx, dotB, dot_S128x64x128_S128x64x128_S128x64x64_2_2_1_1_0_0]; rfl
/-- Left operand, axis 1 (free): the result's row coordinate. -/
theorem dotB_lhs_1 (j : S128x64x64.Idx) (k : dotB.contr.Idx) : (dotB.lhsIdx j k 1 : ℕ) = j 1 := by
  simp [DotDims.lhsIdx, dotB, dot_S128x64x128_S128x64x128_S128x64x64_2_2_1_1_0_0]; rfl
/-- Left operand, axis 2 (contracted): the contraction coordinate. -/
theorem dotB_lhs_2 (j : S128x64x64.Idx) (k : dotB.contr.Idx) : (dotB.lhsIdx j k 2 : ℕ) = k ⟨0, by decide⟩ := by
  simp [DotDims.lhsIdx, dotB, dot_S128x64x128_S128x64x128_S128x64x64_2_2_1_1_0_0]; rfl
/-- Right operand, axis 0 (batch): the result's sentence coordinate. -/
theorem dotB_rhs_0 (j : S128x64x64.Idx) (k : dotB.contr.Idx) : (dotB.rhsIdx j k 0 : ℕ) = j 0 := by
  simp [DotDims.rhsIdx, dotB, dot_S128x64x128_S128x64x128_S128x64x64_2_2_1_1_0_0]; rfl
/-- Right operand, axis 1 (free): the result's column coordinate. -/
theorem dotB_rhs_1 (j : S128x64x64.Idx) (k : dotB.contr.Idx) : (dotB.rhsIdx j k 1 : ℕ) = j 2 := by
  simp [DotDims.rhsIdx, dotB, dot_S128x64x128_S128x64x128_S128x64x64_2_2_1_1_0_0]; rfl
/-- Right operand, axis 2 (contracted): the contraction coordinate. -/
theorem dotB_rhs_2 (j : S128x64x64.Idx) (k : dotB.contr.Idx) : (dotB.rhsIdx j k 2 : ℕ) = k ⟨0, by decide⟩ := by
  simp [DotDims.rhsIdx, dotB, dot_S128x64x128_S128x64x128_S128x64x64_2_2_1_1_0_0]; rfl

/-- The left operand's index at result (b', i, j) and contraction coordinate r is (b', i, r). -/
theorem dotB_lhsIdx (b' : Fin 128) (i j : Fin 64) (r : Fin 128) :
    dotB.lhsIdx (ix3 b' i j) ((contrEquiv1 dotB 128 rfl rfl).symm r) = ix3 b' i r := by
  funext a
  refine Fin.ext ?_
  match a with
  | ⟨0, _⟩ => exact dotB_lhs_0 _ _
  | ⟨1, _⟩ => exact dotB_lhs_1 _ _
  | ⟨2, _⟩ => exact (dotB_lhs_2 _ _).trans (contrEquiv1_symm_val dotB 128 rfl rfl r)

/-- The right operand's index at result (b', i, j) and contraction coordinate r is (b', j, r). -/
theorem dotB_rhsIdx (b' : Fin 128) (i j : Fin 64) (r : Fin 128) :
    dotB.rhsIdx (ix3 b' i j) ((contrEquiv1 dotB 128 rfl rfl).symm r) = ix3 b' j r := by
  funext a
  refine Fin.ext ?_
  match a with
  | ⟨0, _⟩ => exact dotB_rhs_0 _ _
  | ⟨1, _⟩ => exact dotB_rhs_1 _ _
  | ⟨2, _⟩ => exact (dotB_rhs_2 _ _).trans (contrEquiv1_symm_val dotB 128 rfl rfl r)

/-- The batched product into the zero accumulator, at (b', i, j): the inner product of rows i and j of sentence b'. -/
theorem dotB_apply (v : FVec Ideal S128x64x128 .f32) (b' : Fin 128) (i j : Fin 64) :
    FloatOps.matmul dotB none v v (constant S128x64x64 .f32 0x00000000#32) (ix3 b' i j)
      = ∑ r : Fin 128, v (ix3 b' i r) * v (ix3 b' j r) := by
  refine (Ideal.matmul_constant_zero_apply dotB none v v (ix3 b' i j)).trans ?_
  refine ((contrEquiv1 dotB 128 rfl rfl).symm.sum_comp
    (fun k => v (dotB.lhsIdx (ix3 b' i j) k) * v (dotB.rhsIdx (ix3 b' i j) k))).symm.trans ?_
  refine Finset.sum_congr rfl fun r _ => ?_
  show v (dotB.lhsIdx (ix3 b' i j) ((contrEquiv1 dotB 128 rfl rfl).symm r))
      * v (dotB.rhsIdx (ix3 b' i j) ((contrEquiv1 dotB 128 rfl rfl).symm r)) = _
  rw [dotB_lhsIdx, dotB_rhsIdx]

/-- Over result index (b', a), the source index whose lane coordinate is r is (b', a, r). -/
theorem liftB (b' : Fin 128) (a : Fin 64) (r : Fin 128) :
    reduces_S128x64x128_S128x64.lift (ix2 b' a) r = ix3 b' a r := by
  funext c
  refine Fin.ext ?_
  match c with
  | ⟨0, _⟩ => rfl
  | ⟨1, _⟩ => rfl
  | ⟨2, _⟩ => rfl

/-- The lane sum of the squares at (b', a): the squared norm of row a of sentence b'. -/
theorem sqNormB_apply (v : FVec Ideal S128x64x128 .f32) (b' : Fin 128) (a : Fin 64) :
    multiReduction .add [2] S128x64 (mulf v v) 0x00000000#32 reduces_S128x64x128_S128x64 (.inl rfl) rfl (ix2 b' a)
      = ∑ r : Fin 128, v (ix3 b' a r) * v (ix3 b' a r) := by
  refine (Ideal.multiReduction_add_single _ _ _ _ _ _).trans ?_
  -- the reduced axis has extent 128; the product is pointwise
  show ∑ r : Fin 128, v (reduces_S128x64x128_S128x64.lift (ix2 b' a) r)
      * v (reduces_S128x64x128_S128x64.lift (ix2 b' a) r) = _
  refine Finset.sum_congr rfl fun r _ => ?_
  rw [liftB]

/-- The norms laid out as a column [128, 64, 1] and broadcast along the last axis: entry (b', i, j) is the norm at
    (b', i). The broadcast reads coordinate 0 on the unit axis; the cast keeps the row-major position 64 b' + i. -/
theorem colNormB_apply (w : FVec Ideal S128x64 .f32) (b' : Fin 128) (i j : Fin 64) :
    broadcastTo S128x64x64 (shapeCast S128x64x1 w shapeCasts_S128x64_S128x64x1) broadcasts_S128x64x1_S128x64x64 (ix3 b' i j)
      = w (ix2 b' i) := by
  refine (broadcastTo_apply _ _ (ix3 b' i j) (ix3 b' i (0 : Fin 1)) ?_).trans ?_
  · intro a
    match a with
    | ⟨0, _⟩ => rfl
    | ⟨1, _⟩ => rfl
    | ⟨2, _⟩ => rfl
  · refine shapeCast_apply _ _ (ix3 b' i (0 : Fin 1)) (ix2 b' i) ?_
    rw [Shape.rowMajor_val_three, Shape.rowMajor_val_two]
    simp

/-- The norms laid out as a row [128, 1, 64] and broadcast along the middle axis: entry (b', i, j) is the norm at
    (b', j). The broadcast reads coordinate 0 on the unit axis; the cast keeps the row-major position 64 b' + j. -/
theorem rowNormB_apply (w : FVec Ideal S128x64 .f32) (b' : Fin 128) (i j : Fin 64) :
    broadcastTo S128x64x64 (shapeCast S128x1x64 w shapeCasts_S128x64_S128x1x64) broadcasts_S128x1x64_S128x64x64 (ix3 b' i j)
      = w (ix2 b' j) := by
  refine (broadcastTo_apply _ _ (ix3 b' i j) (ix3 b' (0 : Fin 1) j) ?_).trans ?_
  · intro a
    match a with
    | ⟨0, _⟩ => rfl
    | ⟨1, _⟩ => rfl
    | ⟨2, _⟩ => rfl
  · refine shapeCast_apply _ _ (ix3 b' (0 : Fin 1) j) (ix2 b' j) ?_
    rw [Shape.rowMajor_val_three, Shape.rowMajor_val_two]
    simp

/-- Entry (b', i, j) is the specification's Gram-form squared distance of rows i and j of sentence b'. -/
theorem gramSquares_apply (v : FVec Ideal S128x64x128 .f32) (b' : Fin 128) (i j : Fin 64) :
    gramSquares v (ix3 b' i j)
      = Cert.PairDist.gramSq (fun r => v (ix3 b' i r)) (fun r => v (ix3 b' j r)) := by
  unfold gramSquares Cert.PairDist.gramSq
  -- the difference, the sum and the scaled product are pointwise; the word 0x40000000 is the specification's two
  refine (subf_apply _ _ _).trans ?_
  refine congrArg₂ (· - ·) ?_ ?_
  · refine (addf_apply _ _ _).trans ?_
    refine congrArg₂ (· + ·) ?_ ?_
    · exact (colNormB_apply _ b' i j).trans (sqNormB_apply v b' i)
    · exact (rowNormB_apply _ b' i j).trans (sqNormB_apply v b' j)
  · refine (mulf_apply _ _ _).trans ?_
    exact congrArg (Cert.PairDist.two32 * ·) (dotB_apply v b' i j)

end Cert.KernelIdeal.Pay

end
-- ==== Proof.KernelPayC.lean ====
/-
  Last stretch of the kernel's body: the squared distances D[b', i, j], flattened to [128, 4096] (column i·64 + j), are
  multiplied, contracting the SENTENCE axis, with the 0/1 matrix E[b', b] = [b' = b] built from two iotas; the product
  is clamped at zero, rooted, and cast from [4096, 128] to [64, 64, 128].
-/
import proofs.«139934_g2000303751998475_pallasbulk_1269_22_alg».proof.Proof.Gen.KernelIdeal.Skeleton
import proofs.«139934_g2000303751998475_pallasbulk_1269_22_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-- The stored block from the squared distances, as the body computes it. -/
def rooted (v26 : FVec Ideal S128x64x64 .f32) : FVec Ideal S64x64x128 .f32 :=
  have v27 : IVec S128x128 32 := iota .tc S128x128 32 [0] iota_S128x128_d0_w32
  have v28 : IVec S128x128 32 := iota .tc S128x128 32 [1] iota_S128x128_d1_w32
  have v29 : IVec S128x128 32 := broadcast S128x128 0#32
  have v30 : IVec S128x128 32 := addi v27 v29
  have v31 : IVec S128x128 1 := cmpi .eq v30 v28
  have v32 : IVec S128x128 32 := extui 32 v31 natLt_1_32
  have v33 : FVec Ideal S128x128 .f32 := sitofp .f32 v32
  have v34 : FVec Ideal S128x4096 .f32 := shapeCast S128x4096 v26 shapeCasts_S128x64x64_S128x4096
  have cst_11 : FVec Ideal S4096x128 .f32 := constant S4096x128 .f32 0x00000000#32
  have v35 : FVec Ideal S4096x128 .f32 := matmul dot_S128x4096_S128x128_S4096x128_0_0_1_1_n_n none v34 v33 cst_11
  have cst_12 : Ideal .f32 := Scalar.ofBits .f32 0x00000000#32
  have v36 : FVec Ideal S4096x128 .f32 := broadcast S4096x128 cst_12
  have v37 : FVec Ideal S4096x128 .f32 := maximumf v35 v36
  have v38 : FVec Ideal S4096x128 .f32 := sqrt v37
  have v39 : FVec Ideal S64x64x128 .f32 := shapeCast S64x64x128 v38 shapeCasts_S4096x128_S64x64x128
  v39

/-- The 0/1 matrix of the last product, as the body builds it from two iotas: the row iota plus the zero splat compared
    for equality with the column iota, widened to 32 bits and converted. -/
def eyeC : FVec Ideal S128x128 .f32 :=
  sitofp .f32 (extui 32 (cmpi .eq (addi (iota .tc S128x128 32 [0] iota_S128x128_d0_w32) (broadcast S128x128 0#32))
    (iota .tc S128x128 32 [1] iota_S128x128_d1_w32)) natLt_1_32)

/-- Two row numbers below 128 are equal as 32-bit words (after adding the zero word) exactly when they are equal:
    both are below 2^32, so the words' values are the numbers themselves. -/
theorem wordC_eq_iff (p q : Fin 128) : BitVec.ofNat 32 p.val + 0#32 = BitVec.ofNat 32 q.val ↔ p = q := by
  constructor
  · intro h
    have h' := congrArg BitVec.toNat h
    simp only [BitVec.add_zero, BitVec.toNat_ofNat] at h'
    have hp := p.isLt
    have hq := q.isLt
    apply Fin.ext
    omega
  · rintro rfl
    simp

/-- Entry (p, q) of the 0/1 matrix is 1 on the diagonal and 0 off it: the comparison's one bit, zero-extended, is the
    integer 1 or 0. -/
theorem eyeC_apply (p q : Fin 128) : eyeC (ix2 p q) = if p = q then (1 : EReal) else 0 := by
  show FloatOps.sitofp .f32 ((IntOp.cmpi .eq (IntOp.addi (iota .tc S128x128 32 [0] iota_S128x128_d0_w32 (ix2 p q)) (0#32))
      (iota .tc S128x128 32 [1] iota_S128x128_d1_w32 (ix2 p q))).setWidth 32) = _
  rw [iota_single_apply, iota_single_apply]
  show (((BitVec.setWidth 32 (BitVec.ofBool (BitVec.ofNat 32 p.val + 0#32 == BitVec.ofNat 32 q.val))).toInt : ℝ) : EReal) = _
  by_cases h : p = q
  · have e : (BitVec.ofNat 32 p.val + 0#32 == BitVec.ofNat 32 q.val) = true := by
      rw [beq_iff_eq]; exact (wordC_eq_iff p q).2 h
    have t : (BitVec.setWidth 32 (BitVec.ofBool true)).toInt = 1 := by decide
    rw [e, if_pos h, t]
    simp
  · have e : (BitVec.ofNat 32 p.val + 0#32 == BitVec.ofNat 32 q.val) = false := by
      rw [beq_eq_false_iff_ne]; exact fun c => h ((wordC_eq_iff p q).1 c)
    have t : (BitVec.setWidth 32 (BitVec.ofBool false)).toInt = 0 := by decide
    rw [e, if_neg h, t]
    simp

/-- The record of the last product: both operands contract their axis 0 (the sentence axis); the result's row is the
    left operand's axis 1, its column the right operand's axis 1. -/
abbrev dotC := dot_S128x4096_S128x128_S4096x128_0_0_1_1_n_n

/-- Left operand, axis 0: the contraction index. -/
theorem dotC_lhs_0 (j : S4096x128.Idx) (k : dotC.contr.Idx) : (dotC.lhsIdx j k 0 : ℕ) = k ⟨0, by decide⟩ := by
  simp [DotDims.lhsIdx, dotC, dot_S128x4096_S128x128_S4096x128_0_0_1_1_n_n]; rfl
/-- Left operand, axis 1: the result's row. -/
theorem dotC_lhs_1 (j : S4096x128.Idx) (k : dotC.contr.Idx) : (dotC.lhsIdx j k 1 : ℕ) = j 0 := by
  simp [DotDims.lhsIdx, dotC, dot_S128x4096_S128x128_S4096x128_0_0_1_1_n_n]; rfl
/-- Right operand, axis 0: the contraction index. -/
theorem dotC_rhs_0 (j : S4096x128.Idx) (k : dotC.contr.Idx) : (dotC.rhsIdx j k 0 : ℕ) = k ⟨0, by decide⟩ := by
  simp [DotDims.rhsIdx, dotC, dot_S128x4096_S128x128_S4096x128_0_0_1_1_n_n]; rfl
/-- Right operand, axis 1: the result's column. -/
theorem dotC_rhs_1 (j : S4096x128.Idx) (k : dotC.contr.Idx) : (dotC.rhsIdx j k 1 : ℕ) = j 1 := by
  simp [DotDims.rhsIdx, dotC, dot_S128x4096_S128x128_S4096x128_0_0_1_1_n_n]; rfl

/-- The squared distances flattened to [128, 4096]: column i·64 + j of row b' is D[b', i, j] (same row-major position,
    (b'·64 + i)·64 + j = b'·4096 + (i·64 + j)). -/
theorem flatC_apply (d : FVec Ideal S128x64x64 .f32) (b' : Fin 128) (i j : Fin 64) (r : Fin 4096)
    (hr : r.val = i.val * 64 + j.val) :
    shapeCast S128x4096 d shapeCasts_S128x64x64_S128x4096 (ix2 b' r) = d (ix3 b' i j) := by
  refine shapeCast_apply d _ (ix2 b' r) (ix3 b' i j) ?_
  rw [Shape.rowMajor_val_three, Shape.rowMajor_val_two]
  show (b'.val * 64 + i.val) * 64 + j.val = b'.val * 4096 + r.val
  omega

/-- Entry (i, j, b) is the root of the clamped sum, over the block's sentences b', of D[b', i, j] · [b' = b]. -/
theorem rooted_apply (d : FVec Ideal S128x64x64 .f32) (i j : Fin 64) (b : Fin 128) :
    rooted d (ix3 i j b)
      = Ideal.sqrt (max (∑ b' : Fin 128, d (ix3 b' i j) * (if b' = b then (1 : EReal) else 0)) Cert.PairDist.zero32) := by
  have hlt : i.val * 64 + j.val < 4096 := by omega
  -- the row of the [4096, 128] product that the final cast reads at (i, j, ·)
  let r : Fin 4096 := ⟨i.val * 64 + j.val, hlt⟩
  show shapeCast S64x64x128 (sqrt (maximumf (matmul dotC none (shapeCast S128x4096 d shapeCasts_S128x64x64_S128x4096) eyeC
      (constant S4096x128 .f32 0x00000000#32)) (broadcast S4096x128 (Scalar.ofBits .f32 0x00000000#32))))
      shapeCasts_S4096x128_S64x64x128 (ix3 i j b) = _
  -- the cast [4096, 128] → [64, 64, 128] at (i, j, b) reads row i·64 + j, column b
  refine (shapeCast_apply _ _ (ix3 i j b) (ix2 r b) ?_).trans ?_
  · rw [Shape.rowMajor_val_three, Shape.rowMajor_val_two]
    rfl
  · -- root, clamp and the zero splat are pointwise; the product into the zero accumulator is the plain sum
    show Ideal.sqrt (max (FloatOps.matmul dotC none (shapeCast S128x4096 d shapeCasts_S128x64x64_S128x4096) eyeC
        (constant S4096x128 .f32 0x00000000#32) (ix2 r b)) Cert.PairDist.zero32) = _
    rw [Ideal.matmul_constant_zero_apply]
    refine congrArg (fun x => Ideal.sqrt (max x Cert.PairDist.zero32)) ?_
    -- the one contracted axis is the sentence b' : Fin 128
    rw [← Equiv.sum_comp (contrEquiv1 dotC 128 rfl rfl).symm]
    refine Finset.sum_congr rfl fun b' _ => ?_
    have e1 : dotC.lhsIdx (ix2 r b) ((contrEquiv1 dotC 128 rfl rfl).symm b') = ix2 b' r :=
      Shape.idx_ext₂ ((dotC_lhs_0 _ _).trans (contrEquiv1_symm_val dotC 128 rfl rfl b')) (dotC_lhs_1 _ _)
    have e2 : dotC.rhsIdx (ix2 r b) ((contrEquiv1 dotC 128 rfl rfl).symm b') = ix2 b' b :=
      Shape.idx_ext₂ ((dotC_rhs_0 _ _).trans (contrEquiv1_symm_val dotC 128 rfl rfl b')) (dotC_rhs_1 _ _)
    rw [e1, e2, flatC_apply d b' i j r rfl, eyeC_apply]

end Cert.KernelIdeal.Pay

end
-- ==== Proof.KernelPay.lean ====
/-
  The kernel's body, read at one entry of the block it stores: the three stretches (squashed projections; Gram-form
  squared distances; transposing product, clamp and root) composed.  At entry (i, j, b) the result is the
  specification's `gramDist` of the loaded blocks.
-/
import proofs.«139934_g2000303751998475_pallasbulk_1269_22_alg».proof.Proof.KernelPayA
import proofs.«139934_g2000303751998475_pallasbulk_1269_22_alg».proof.Proof.KernelPayB
import proofs.«139934_g2000303751998475_pallasbulk_1269_22_alg».proof.Proof.KernelPayC

set_option maxRecDepth 65536
noncomputable section

namespace Cert.KernelIdeal.Pay

open Cert.KernelIdeal Cert.KernelIdeal.Gen Idealize.ShloMosaic Idealize.ShloMosaic.ValueIdx
open scoped BigOperators

/-- The body's one payload is the three stretches in a row. -/
theorem pay_split (x0 : Vec Ideal S128x64x128 .f32) (x1 : Vec Ideal S128x128 .f32) :
    k0_pay1 (F := Ideal) x0 x1 = rooted (gramSquares (squashed (F := Ideal) x0 x1)) := rfl

/-- The stored block at (i, j, b) is the specification's Gram-form entry of the loaded blocks. -/
theorem pay_apply (x0 : Vec Ideal S128x64x128 .f32) (x1 : Vec Ideal S128x128 .f32) (i j : Fin 64) (b : Fin 128) :
    k0_pay1 (F := Ideal) x0 x1 (ix3 i j b)
      = Cert.PairDist.gramDist (fun b' a l => x0 (ix3 b' a l)) (fun l r => x1 (ix2 l r)) i j b := by
  rw [pay_split, rooted_apply]
  unfold Cert.PairDist.gramDist
  refine congrArg (fun s => Ideal.sqrt (max s Cert.PairDist.zero32)) (Finset.sum_congr rfl fun b' _ => ?_)
  rw [gramSquares_apply]
  refine congrArg (· * _) ?_
  refine congrArg₂ Cert.PairDist.gramSq (funext fun r => squashed_apply x0 x1 b' i r) (funext fun r => squashed_apply x0 x1 b' j r)

end Cert.KernelIdeal.Pay

end
-- ==== Proof.Lanes.lean ====
/-
  The two layouts in which the programs' pipelines leave the pairwise distances, before the host operations that
  follow bring them to [sentence, i, j].

  The kernel writes [i, j, sentence]: entry (i, j, s) is the distance between tokens i and j of sentence s.
  The reference works on the sentences padded to 1026 = 342 · 3 and writes one row of 12288 lanes per group of three:
  entry (t, 0, k) with k = (b · 64 + i) · 64 + j is the distance between tokens i and j of padded sentence 3t + b.
-/
import proofs.«139934_g2000303751998475_pallasbulk_1269_22_alg».proof.Proof.Spec

noncomputable section

namespace Cert.PairDist

open Idealize.ShloMosaic Idealize.ShloMosaic.ValueIdx

/-- The kernel's layout: the sentence axis last. -/
def sentLast (X : (⟨3, ![1024, 64, 128]⟩ : Shape).Idx → EReal) (W : (⟨2, ![128, 128]⟩ : Shape).Idx → EReal) :
    (⟨3, ![64, 64, 1024]⟩ : Shape).Idx → EReal :=
  fun o => Gat X W (o 2) (o 0) (o 1)

theorem sentLast_apply (X : (⟨3, ![1024, 64, 128]⟩ : Shape).Idx → EReal) (W : (⟨2, ![128, 128]⟩ : Shape).Idx → EReal)
    (i j : Fin 64) (s : Fin 1024) : sentLast X W (ix3 i j s) = Gat X W s i j := rfl

/-- The padded sentence, and the two tokens, that lane k of row t speaks of. -/
def laneSent (t : Fin 342) (k : Fin 12288) : Fin 1026 := ⟨3 * t.val + k.val / 4096, by have := t.isLt; have := k.isLt; omega⟩
def laneI (k : Fin 12288) : Fin 64 := ⟨k.val / 64 % 64, Nat.mod_lt _ (by decide)⟩
def laneJ (k : Fin 12288) : Fin 64 := ⟨k.val % 64, Nat.mod_lt _ (by decide)⟩

/-- The reference's layout over the PADDED sentences P: rows of 12288 lanes, three sentences a row. -/
def lanesAt (P : (⟨3, ![1026, 64, 128]⟩ : Shape).Idx → EReal) (W : (⟨2, ![128, 128]⟩ : Shape).Idx → EReal)
    (t : Fin 342) (k : Fin 12288) : EReal :=
  pairDist (fun l => P (ix3 (laneSent t k) (laneI k) l)) (fun l => P (ix3 (laneSent t k) (laneJ k) l)) (fun l r => W (ix2 l r))

def lanes (P : (⟨3, ![1026, 64, 128]⟩ : Shape).Idx → EReal) (W : (⟨2, ![128, 128]⟩ : Shape).Idx → EReal) :
    (⟨3, ![342, 1, 12288]⟩ : Shape).Idx → EReal :=
  fun o => lanesAt P W (o 0) (o 2)

theorem lanes_apply (P : (⟨3, ![1026, 64, 128]⟩ : Shape).Idx → EReal) (W : (⟨2, ![128, 128]⟩ : Shape).Idx → EReal)
    (t : Fin 342) (z : Fin 1) (k : Fin 12288) : lanes P W (ix3 t z k) = lanesAt P W t k := rfl

end Cert.PairDist

end
-- ==== Proof.KernelValue.lean ====
/-
  The kernel's program as a whole: what its result array holds after the run.

  Grid point t = (c, q) loads sentences 128·(4c + q) … +127 and all the weights, and stores a [64, 64, 128] block at
  lane block 4c + q of the [64, 64, 1024] array: entry (i, j, 128·(4c+q) + b) of that array is the body's entry
  (i, j, b), which on real inputs is the distance between tokens i and j of sentence 128·(4c+q) + b.  The eight
  blocks tile the array; the transposition [2, 0, 1] after the region moves the sentence axis to the front.
-/
import proofs.«139934_g2000303751998475_pallasbulk_1269_22_alg».proof.Proof.Gen.KernelIdeal.Frame
import proofs.«139934_g2000303751998475_pallasbulk_1269_22_alg».proof.Proof.KernelPay
import proofs.«139934_g2000303751998475_pallasbulk_1269_22_alg».proof.Proof.Lanes
import Idealize.ShloMosaic.Lib.Pipeline.Value
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## One entry of one block -/

/-- If the loaded block x0 is sentences 128q … 128q + 127 of X and x1 is W, all entries real, the body's entry (i, j, b)
    is the distance between tokens i and j of sentence 128q + b: the body read at an index, then the law that joins the
    Gram form to the difference form. -/
theorem entry_eq (x0 : Vec Ideal S128x64x128 .f32) (x1 : Vec Ideal S128x128 .f32)
    (X : S1024x64x128.Idx → EReal) (W : S128x128.Idx → EReal) (q : ℕ) (hq : q ≤ 7)
    (h0 : ∀ (b' : Fin 128) (a : Fin 64) (l : Fin 128), x0 (ix3 b' a l) = X (ix3 (⟨q * 128 + b'.val, by omega⟩ : Fin 1024) a l))
    (h1 : ∀ l r : Fin 128, x1 (ix2 l r) = W (ix2 l r))
    (hX : ∀ i, ∃ x : ℝ, X i = (x : EReal)) (hW : ∀ i, ∃ x : ℝ, W i = (x : EReal))
    (i j : Fin 64) (b : Fin 128) :
    k0_pay1 (F := Ideal) x0 x1 (ix3 i j b) = Cert.PairDist.Gat X W (⟨q * 128 + b.val, by omega⟩ : Fin 1024) i j := by
  rw [Cert.KernelIdeal.Pay.pay_apply,
    Cert.PairDist.gramDist_eq _ _ (fun b' a l => by rw [h0]; exact hX _) (fun l r => by rw [h1]; exact hW _)]
  have e1 : (fun l r => x1 (ix2 l r)) = fun (l r : Fin 128) => W (ix2 l r) := funext fun l => funext fun r => h1 l r
  have e2 : ∀ a : Fin 64, (fun l => x0 (ix3 b a l)) = fun (l : Fin 128) => X (ix3 (⟨q * 128 + b.val, by omega⟩ : Fin 1024) a l) :=
    fun a => funext fun l => h0 b a l
  show Cert.PairDist.pairDist (fun l => x0 (ix3 b i l)) (fun l => x0 (ix3 b j l)) (fun l r => x1 (ix2 l r)) = _
  rw [e1, e2 i, e2 j]
  rfl

/-! ## The index maps, decided over the eight points -/

theorem hz3 : (![0, 0, 0] : Fin 3 → Nat) = fun _ => 0 := funext fun a => by fin_cases a <;> rfl
theorem hz2 : (![0, 0] : Fin 2 → Nat) = fun _ => 0 := funext fun a => by fin_cases a <;> rfl

/-- The sentences' block index on the sentence axis is the output's block index on the lane axis; every other block
    index is zero; there are eight lane blocks. -/
theorem idx_facts : ∀ t : Fin cfg0.N,
    win0_0.index t (0 : Fin 3) = win0_2.index t (2 : Fin 3) ∧ win0_0.index t (1 : Fin 3) = 0 ∧ win0_0.index t (2 : Fin 3) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) ≤ 7 :=
  (by decide +kernel : ∀ t : Fin grid0.N, _)

/-- Every lane block is some point's. -/
theorem idx_onto : ∀ q : Fin 8, ∃ t : Fin cfg0.N, win0_2.index t = ![0, 0, q.val] :=
  (by decide +kernel : ∀ q : Fin 8, ∃ t : Fin grid0.N, win0_2.index t = ![0, 0, q.val])

/-! ## What a point writes back -/

/-- WHAT POINT t WRITES BACK is block t of the sentence-last distance array of the arguments, when these are real. -/
theorem flushed_eq (hX : ∀ (c : Dev nD) (i : S1024x64x128.Idx), ∃ x : ℝ, (V m c main_arg0 : S1024x64x128.Idx → EReal) i = (x : EReal))
    (hW : ∀ (c : Dev nD) (i : S128x128.Idx), ∃ x : ℝ, (V m c main_arg1 : S128x128.Idx → EReal) i = (x : EReal))
    (c : Dev nD) (t : Fin cfg0.N) :
    (dats m 0 c).flushed 2 t
      = ((cfg0.win 2).blk t).view.read (Elt Ideal) (Cert.PairDist.sentLast (V m c main_arg0) (V m c main_arg1)) := by
  show (cfg0.win 2).cut (grid0.coords t) ((dats m 0 c).after 2 t) = _
  rw [after0_2]
  unfold out0_2
  rw [View.canon_unit_zero hz3]
  simp only [View.ld_unit_zero (S := S128x64x128) hz3, View.ld_unit_zero (S := S128x128) hz2]
  obtain ⟨e0, e1, e2, e3, e4, e5, e6, e7⟩ := idx_facts t
  funext y
  obtain ⟨i, j, b, rfl⟩ : ∃ (i j : Fin 64) (b : Fin 128), y = ix3 i j b := ⟨y 0, y 1, y 2, eq_ix3 y⟩
  show k0_pay1 (F := Ideal) (iblk m c 0 t) (iblk m c 1 t) (ix3 i j b) = _
  refine (entry_eq (iblk m c 0 t) (iblk m c 1 t) (V m c main_arg0) (V m c main_arg1) (win0_2.index t (2 : Fin 3)) e7 ?_ ?_
    (hX c) (hW c) i j b).trans ?_
  · -- the sentences' block: entry (b', a, l) of block t is sentence 128 · (lane block of t) + b'
    intro b' a l
    show V m c main_arg0 (((cfg0.win 0).blk t).view.emb (ix3 b' a l)) = V m c main_arg0 _
    refine congrArg _ (funext fun ax => Fin.ext ?_)
    match ax with
    | ⟨0, _⟩ => show win0_0.index t (0 : Fin 3) * 128 + 1 * b'.val = win0_2.index t (2 : Fin 3) * 128 + b'.val; omega
    | ⟨1, _⟩ => show win0_0.index t (1 : Fin 3) * 64 + 1 * a.val = a.val; omega
    | ⟨2, _⟩ => show win0_0.index t (2 : Fin 3) * 128 + 1 * l.val = l.val; omega
  · -- the weights' block is the whole array
    intro l r
    show V m c main_arg1 (((cfg0.win 1).blk t).view.emb (ix2 l r)) = V m c main_arg1 _
    refine congrArg _ (funext fun ax => Fin.ext ?_)
    match ax with
    | ⟨0, _⟩ => show win0_1.index t (0 : Fin 2) * 128 + 1 * l.val = l.val; omega
    | ⟨1, _⟩ => show win0_1.index t (1 : Fin 2) * 128 + 1 * r.val = r.val; omega
  · -- the output's block: entry (i, j, b) of block t is entry (i, j, 128 · (lane block of t) + b) of the array
    show _ = Cert.PairDist.sentLast (V m c main_arg0) (V m c main_arg1) (((cfg0.win 2).blk t).view.emb (ix3 i j b))
    have hemb : ((cfg0.win 2).blk t).view.emb (ix3 i j b)
        = ix3 i j (⟨win0_2.index t (2 : Fin 3) * 128 + b.val, by omega⟩ : Fin 1024) := by
      funext ax; apply Fin.ext
      match ax with
      | ⟨0, _⟩ => show win0_2.index t (0 : Fin 3) * 64 + 1 * i.val = i.val; omega
      | ⟨1, _⟩ => show win0_2.index t (1 : Fin 3) * 64 + 1 * j.val = j.val; omega
      | ⟨2, _⟩ => show win0_2.index t (2 : Fin 3) * 128 + 1 * b.val = win0_2.index t (2 : Fin 3) * 128 + b.val; omega
    rw [hemb, Cert.PairDist.sentLast_apply]

/-! ## The array after the last write-back -/

/-- An index of the array is in point t's block iff each coordinate is in the block's range on its axis. -/
theorem mem_blk (t : Fin cfg0.N) (i : S64x64x1024.Idx) :
    i ∈ ((cfg0.win 2).blk t).view.set ↔ ∀ a : Fin 3, win0_2.index t a * S64x64x128.size a ≤ (i a).val
      ∧ (i a).val < win0_2.index t a * S64x64x128.size a + S64x64x128.size a := by
  show i ∈ ((View.whole main_v0).slice (win0_2.rect t)).set ↔ _
  rw [View.set_slice_whole, Rect.mem_set_unit]
  exact Iff.rfl

/-- The eight blocks tile the array: entry (i, j, s) lies in the block of the point whose lane block is s / 128. -/
theorem cover (i : S64x64x1024.Idx) :
    ∃ t : Fin cfg0.N, (cfg0.win 2).flush t = true ∧ i ∈ ((cfg0.win 2).blk t).view.set := by
  have h0 : (i 0).val < 64 := (i 0).isLt
  have h1 : (i 1).val < 64 := (i 1).isLt
  have h2 : (i 2).val < 1024 := (i 2).isLt
  obtain ⟨t, ht⟩ := idx_onto ⟨(i 2).val / 128, by omega⟩
  have q0 : win0_2.index t (0 : Fin 3) = 0 := congrFun ht 0
  have q1 : win0_2.index t (1 : Fin 3) = 0 := congrFun ht 1
  have q2 : win0_2.index t (2 : Fin 3) = (i 2).val / 128 := congrFun ht 2
  refine ⟨t, flush0_2 t, ?_⟩
  rw [mem_blk]
  intro a
  match a with
  | ⟨0, _⟩ => show win0_2.index t (0 : Fin 3) * 64 ≤ (i 0).val ∧ (i 0).val < win0_2.index t (0 : Fin 3) * 64 + 64; omega
  | ⟨1, _⟩ => show win0_2.index t (1 : Fin 3) * 64 ≤ (i 1).val ∧ (i 1).val < win0_2.index t (1 : Fin 3) * 64 + 64; omega
  | ⟨2, _⟩ => show win0_2.index t (2 : Fin 3) * 128 ≤ (i 2).val ∧ (i 2).val < win0_2.index t (2 : Fin 3) * 128 + 128; omega

/-- THE ARRAY after the pipeline: the sentence-last distance array of the arguments. -/
theorem final (hX : ∀ (c : Dev nD) (i : S1024x64x128.Idx), ∃ x : ℝ, (V m c main_arg0 : S1024x64x128.Idx → EReal) i = (x : EReal))
    (hW : ∀ (c : Dev nD) (i : S128x128.Idx), ∃ x : ℝ, (V m c main_arg1 : S128x128.Idx → EReal) i = (x : EReal))
    (c : Dev nD) :
    (dats m 0 c).arrAt 2 cfg0.N = Cert.PairDist.sentLast (V m c main_arg0) (V m c main_arg1) :=
  (dats m 0 c).arrAt_eq_of_cover 2 _ (fun t _ => flushed_eq m hX hW c t) cover

/-! ## The host operation after the pipeline, and the run -/

/-- THE RESULT after the transposition that follows the pipeline: the pairwise-distance array of the arguments. -/
theorem tail_eq (hX : ∀ (c : Dev nD) (i : S1024x64x128.Idx), ∃ x : ℝ, (V m c main_arg0 : S1024x64x128.Idx → EReal) i = (x : EReal))
    (hW : ∀ (c : Dev nD) (i : S128x128.Idx), ∃ x : ℝ, (V m c main_arg1 : S128x128.Idx → EReal) i = (x : EReal))
    (c : Dev nD) :
    Pipeline.afterTail₀ cfgs (dats m) 0 (V0 m) [hostOps1] c main_v1
      = Cert.PairDist.G (V m c main_arg0) (V m c main_arg1) := by
  unfold Pipeline.afterTail₀
  show StableHlo.after hostOps1 _ (Proc.devRef .tc main_v1) = _
  after_results
  -- the pipeline's output array, as the region left it
  have hA : Pipeline.withArrays (cfgs 0).spec c (V0 m c) (fun w => (dats m 0 c).arrAt w (cfgs 0).N) (Proc.devRef .tc main_v0)
      = Cert.PairDist.sentLast (V m c main_arg0) (V m c main_arg1) :=
    (Pipeline.withArrays_arr spec0 launch0.win.arr_inj c _ _ 2).trans (final m hX hW c)
  refine (congrArg (fun A => transpose S1024x64x64 [2, 0, 1] A transposes_S64x64x1024_S1024x64x64_2_0_1) hA).trans ?_
  -- entry (s, i, j) of the transposed array is entry (i, j, s) of the sentence-last one
  funext o
  obtain ⟨s, i, j, rfl⟩ : ∃ (s : Fin 1024) (i j : Fin 64), o = ix3 s i j := ⟨o 0, o 1, o 2, eq_ix3 o⟩
  rw [Cert.PairDist.G_apply]
  refine (transpose_apply [2, 0, 1] _ transposes_S64x64x1024_S1024x64x64_2_0_1 (ix3 s i j) (ix3 i j s) ?_).trans
    (Cert.PairDist.sentLast_apply _ _ i j s)
  intro ax
  match ax with
  | ⟨0, _⟩ => rfl
  | ⟨1, _⟩ => rfl
  | ⟨2, _⟩ => rfl

/-- The run: the result is the pairwise-distance array of the arguments, which end unchanged. -/
theorem run (hX : ∀ (c : Dev nD) (i : S1024x64x128.Idx), ∃ x : ℝ, (m ((c.tc : Thread nD τ).loc main_arg0) : S1024x64x128.Idx → EReal) i = (x : EReal))
    (hW : ∀ (c : Dev nD) (i : S128x128.Idx), ∃ x : ℝ, (m ((c.tc : Thread nD τ).loc main_arg1) : S128x128.Idx → EReal) i = (x : EReal)) :
    θ_run defs (onTc (τ := τ) (main (F := Ideal))) ⟨m, fun _ => 0, ρ⟩ fun r => ∀ c : Dev nD,
      r.2.mem ((c.tc : Thread nD τ).loc main_v1) = Cert.PairDist.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v1 (Pipeline.mem_restRefs_of main_v1 rfl (by decide))).trans (tail_eq m hX hW c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Whole

end
-- ==== Proof.RefPayA.lean ====
/-
  First stretch of the reference's body: from the three loaded sentences and the weights to the squashed projections
  S[b, a, r] = logistic (Σ_l log (|x0[b, a, l]| + 1) · x1[l, r]).  The sentences are flattened to 192 rows for the
  product (row b·64 + a) and cast back afterwards.
-/
import proofs.«139934_g2000303751998475_pallasbulk_1269_22_alg».proof.Proof.Gen.ReferenceIdeal.Skeleton
import proofs.«139934_g2000303751998475_pallasbulk_1269_22_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Pay

open Cert.ReferenceIdeal Cert.ReferenceIdeal.Gen Idealize.ShloMosaic Idealize.ShloMosaic.ValueIdx
open scoped BigOperators

/-- The squashed projections of the three sentences, as the body computes them (at any float instance). -/
def squashed {F : FTy → Type} [FloatOps F] (v0 : Vec F S3x64x128 .f32) (v6 : Vec F S128x128 .f32) : FVec F S3x64x128 .f32 :=
  have v1 : FVec F S3x64x128 .f32 := shapeCast S3x64x128 v0 shapeCasts_S3x64x128_S3x64x128
  have v2 : FVec F S3x64x128 .f32 := absf v1
  have cst : F .f32 := Scalar.ofBits .f32 0x3F800000#32
  have v3 : FVec F S3x64x128 .f32 := broadcast S3x64x128 cst
  have v4 : FVec F S3x64x128 .f32 := addf v2 v3
  have v5 : FVec F S3x64x128 .f32 := log v4
  have v7 : FVec F S192x128 .f32 := shapeCast S192x128 v5 shapeCasts_S3x64x128_S192x128
  have cst_4 : FVec F S192x128 .f32 := constant S192x128 .f32 0x00000000#32
  have v8 : FVec F S192x128 .f32 := matmul dot_S192x128_S128x128_S192x128_1_0_0_1_n_n none v7 v6 cst_4
  have v9 : FVec F S192x128 .f32 := logistic v8
  have v10 : FVec F S3x64x128 .f32 := shapeCast S3x64x128 v9 shapeCasts_S192x128_S3x64x128
  v10

/-- The product's dimension numbers: the left operand's axis 1 is contracted with the right operand's axis 0. -/
abbrev dotA := dot_S192x128_S128x128_S192x128_1_0_0_1_n_n

/-- The left operand is read at the result's row. -/
theorem dotA_lhs_0 (j : S192x128.Idx) (k : dotA.contr.Idx) : (dotA.lhsIdx j k 0 : ℕ) = j 0 := by
  simp [DotDims.lhsIdx, dotA, dot_S192x128_S128x128_S192x128_1_0_0_1_n_n]; rfl
/-- The left operand is read at the contracted column. -/
theorem dotA_lhs_1 (j : S192x128.Idx) (k : dotA.contr.Idx) : (dotA.lhsIdx j k 1 : ℕ) = k ⟨0, by decide⟩ := by
  simp [DotDims.lhsIdx, dotA, dot_S192x128_S128x128_S192x128_1_0_0_1_n_n]; rfl
/-- The right operand is read at the contracted row. -/
theorem dotA_rhs_0 (j : S192x128.Idx) (k : dotA.contr.Idx) : (dotA.rhsIdx j k 0 : ℕ) = k ⟨0, by decide⟩ := by
  simp [DotDims.rhsIdx, dotA, dot_S192x128_S128x128_S192x128_1_0_0_1_n_n]; rfl
/-- The right operand is read at the result's column. -/
theorem dotA_rhs_1 (j : S192x128.Idx) (k : dotA.contr.Idx) : (dotA.rhsIdx j k 1 : ℕ) = j 1 := by
  simp [DotDims.rhsIdx, dotA, dot_S192x128_S128x128_S192x128_1_0_0_1_n_n]; rfl

/-- The contraction's index set is Fin 128. -/
abbrev dotA_contr : dotA.contr.Idx ≃ Fin 128 := contrEquiv1 dotA 128 rfl rfl

/-- At the contraction index named by l, the left operand's column is l. -/
theorem dotA_lhs_1_at (j : S192x128.Idx) (l : Fin 128) : (dotA.lhsIdx j (dotA_contr.symm l) 1 : ℕ) = l.val :=
  (dotA_lhs_1 j _).trans (contrEquiv1_symm_val dotA 128 rfl rfl l)

/-- At the contraction index named by l and the result's entry (i, r), the right operand is read at (l, r). -/
theorem dotA_rhs_at (i : Fin 192) (r l : Fin 128) : dotA.rhsIdx (ix2 i r) (dotA_contr.symm l) = ix2 l r := by
  funext d
  match d with
  | ⟨0, _⟩ => exact Fin.ext ((dotA_rhs_0 _ _).trans (contrEquiv1_symm_val dotA 128 rfl rfl l))
  | ⟨1, _⟩ => exact Fin.ext (dotA_rhs_1 _ _)

/-- Entry (b, a, r) of the squashed projections is the logistic function of the specification's projection of token a
    of sentence b. -/
theorem squashed_apply (x0 : Vec Ideal S3x64x128 .f32) (x1 : Vec Ideal S128x128 .f32) (b : Fin 3) (a : Fin 64) (r : Fin 128) :
    squashed (F := Ideal) x0 x1 (ix3 b a r)
      = Cert.PairDist.squashL (Cert.PairDist.proj (fun l => x0 (ix3 b a l)) (fun l r => x1 (ix2 l r)) r) := by
  unfold squashed
  -- the cast back to three axes reads row b·64 + a of the flattened product
  refine (shapeCast_apply _ _ (ix3 b a r) (ix2 (⟨b.val * 64 + a.val, by omega⟩ : Fin 192) r) ?_).trans ?_
  · rw [Shape.rowMajor_val_three, Shape.rowMajor_val_two]
    rfl
  -- the logistic function acts entrywise
  show Ideal.logistic (FloatOps.matmul (F := Ideal) dotA none _ x1 (constant (F := Ideal) S192x128 .f32 0x00000000#32)
      (ix2 (⟨b.val * 64 + a.val, by omega⟩ : Fin 192) r)) = _
  unfold Cert.PairDist.squashL
  refine congrArg Ideal.logistic ?_
  -- the product into the zero accumulator is the sum over the contracted axis, re-indexed to Fin 128
  refine (Ideal.matmul_constant_zero_apply dotA none _ x1 _).trans ?_
  unfold Cert.PairDist.proj
  refine (Equiv.sum_comp dotA_contr.symm _).symm.trans ?_
  refine Finset.sum_congr rfl fun l _ => ?_
  refine congrArg₂ (· * ·) ?_ ?_
  · -- the flattening cast at (b·64 + a, l) reads (b, a, l)
    refine (shapeCast_apply _ _ _ (ix3 b a l) ?_).trans ?_
    · rw [Shape.rowMajor_val_three, Shape.rowMajor_val_two, dotA_lhs_0, dotA_lhs_1_at]
      rfl
    · -- the cast of the loaded block to its own shape is the block; absolute value, sum with 1 and logarithm act entrywise
      rw [shapeCast_self]
      rfl
  · exact congrArg x1 (dotA_rhs_at _ r l)

end Cert.ReferenceIdeal.Pay

end
-- ==== Proof.RefPayB.lean ====
/-
  Second stretch of the reference's body: from the squashed projections S[b, a, r] to the stored row.  A column copy
  [3, 64, 1, 128] and a row copy [3, 1, 64, 128] are broadcast to [3, 64, 64, 128] and subtracted, the squares are summed
  over r, rooted, and the [3, 64, 64] result is cast to one row of 12288 lanes: lane (b·64 + i)·64 + j.
-/
import proofs.«139934_g2000303751998475_pallasbulk_1269_22_alg».proof.Proof.Gen.ReferenceIdeal.Skeleton
import proofs.«139934_g2000303751998475_pallasbulk_1269_22_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Pay

open Cert.ReferenceIdeal Cert.ReferenceIdeal.Gen Idealize.ShloMosaic Idealize.ShloMosaic.ValueIdx
open scoped BigOperators

/-- The stored row from the squashed projections, as the body computes it. -/
def distances (v10 : FVec Ideal S3x64x128 .f32) : FVec Ideal S1x1x12288 .f32 :=
  have v11 : FVec Ideal S3x64x1x128 .f32 := shapeCast S3x64x1x128 v10 shapeCasts_S3x64x128_S3x64x1x128
  have v12 : FVec Ideal S3x1x64x128 .f32 := shapeCast S3x1x64x128 v10 shapeCasts_S3x64x128_S3x1x64x128
  have v13 : FVec Ideal S3x64x64x128 .f32 := broadcastTo S3x64x64x128 v11 broadcasts_S3x64x1x128_S3x64x64x128
  have v14 : FVec Ideal S3x64x64x128 .f32 := broadcastTo S3x64x64x128 v12 broadcasts_S3x1x64x128_S3x64x64x128
  have v15 : FVec Ideal S3x64x64x128 .f32 := subf v13 v14
  have v16 : FVec Ideal S3x64x64x128 .f32 := mulf v15 v15
  have v17 : FVec Ideal S3x64x64 .f32 := multiReduction .add [3] S3x64x64 v16 0x00000000#32 reduces_S3x64x64x128_S3x64x64 (.inl rfl) rfl
  have v18 : FVec Ideal S3x64x64 .f32 := sqrt v17
  have v19 : FVec Ideal S1x1x12288 .f32 := shapeCast S1x1x12288 v18 shapeCasts_S3x64x64_S1x1x12288
  v19

/-- The index of the summed axis: result index (b, i, j) with lane r inserted on axis 3 is (b, i, j, r). -/
theorem lift_ix (b : Fin 3) (i j : Fin 64) (r : Fin 128) :
    reduces_S3x64x64x128_S3x64x64.lift (ix3 b i j) r = ix4 b i j r := by
  funext c
  match c with
  | ⟨0, _⟩ => exact Fin.ext rfl
  | ⟨1, _⟩ => exact Fin.ext rfl
  | ⟨2, _⟩ => exact Fin.ext rfl
  | ⟨3, _⟩ => exact Fin.ext rfl

/-- The column copy at (b, i, j, r) reads the operand at (b, i, r): the broadcast reads the unit axis 2 at 0, and the
    cast [3, 64, 128] → [3, 64, 1, 128] keeps the row-major position (b·64 + i)·128 + r. -/
theorem col_apply (v : FVec Ideal S3x64x128 .f32) (b : Fin 3) (i j : Fin 64) (r : Fin 128) :
    broadcastTo S3x64x64x128 (shapeCast S3x64x1x128 v shapeCasts_S3x64x128_S3x64x1x128)
      broadcasts_S3x64x1x128_S3x64x64x128 (ix4 b i j r) = v (ix3 b i r) := by
  refine (broadcastTo_apply _ _ (ix4 b i j r) (ix4 b i (0 : Fin 1) r) ?_).trans ?_
  · intro a
    match a with
    | ⟨0, _⟩ => rfl
    | ⟨1, _⟩ => rfl
    | ⟨2, _⟩ => rfl
    | ⟨3, _⟩ => rfl
  refine shapeCast_apply _ _ _ (ix3 b i r) ?_
  rw [Shape.rowMajor_val_three, Shape.rowMajor_val_four]
  show (b.val * 64 + i.val) * 128 + r.val = ((b.val * 64 + i.val) * 1 + (0 : Fin 1).val) * 128 + r.val
  simp

/-- The row copy at (b, i, j, r) reads the operand at (b, j, r): the broadcast reads the unit axis 1 at 0, and the
    cast [3, 64, 128] → [3, 1, 64, 128] keeps the row-major position (b·64 + j)·128 + r. -/
theorem row_apply (v : FVec Ideal S3x64x128 .f32) (b : Fin 3) (i j : Fin 64) (r : Fin 128) :
    broadcastTo S3x64x64x128 (shapeCast S3x1x64x128 v shapeCasts_S3x64x128_S3x1x64x128)
      broadcasts_S3x1x64x128_S3x64x64x128 (ix4 b i j r) = v (ix3 b j r) := by
  refine (broadcastTo_apply _ _ (ix4 b i j r) (ix4 b (0 : Fin 1) j r) ?_).trans ?_
  · intro a
    match a with
    | ⟨0, _⟩ => rfl
    | ⟨1, _⟩ => rfl
    | ⟨2, _⟩ => rfl
    | ⟨3, _⟩ => rfl
  refine shapeCast_apply _ _ _ (ix3 b j r) ?_
  rw [Shape.rowMajor_val_three, Shape.rowMajor_val_four]
  show (b.val * 64 + j.val) * 128 + r.val = ((b.val * 1 + (0 : Fin 1).val) * 64 + j.val) * 128 + r.val
  simp

/-- Lane k = (b·64 + i)·64 + j of the row is the specification's difference-form distance of rows i and j of sentence b. -/
theorem distances_apply (v : FVec Ideal S3x64x128 .f32) (b : Fin 3) (i j : Fin 64) (k : Fin 12288)
    (hk : k.val = (b.val * 64 + i.val) * 64 + j.val) :
    distances v (ix3 (0 : Fin 1) (0 : Fin 1) k)
      = Cert.PairDist.diffDist (fun r => v (ix3 b i r)) (fun r => v (ix3 b j r)) := by
  unfold distances Cert.PairDist.diffDist
  refine (shapeCast_apply _ _ _ (ix3 b i j) ?_).trans ?_
  · rw [Shape.rowMajor_val_three, Shape.rowMajor_val_three]
    show (b.val * 64 + i.val) * 64 + j.val = ((0 : Fin 1).val * 1 + (0 : Fin 1).val) * 12288 + k.val
    rw [hk]; simp
  show Ideal.sqrt _ = Ideal.sqrt _
  refine congrArg Ideal.sqrt ?_
  refine (Ideal.multiReduction_add_single _ _ _ _ _ _).trans ?_
  show ∑ r : Fin 128, _ = _
  refine Finset.sum_congr rfl fun r _ => ?_
  rw [lift_ix b i j r]
  show (broadcastTo S3x64x64x128 (shapeCast S3x64x1x128 v shapeCasts_S3x64x128_S3x64x1x128)
          broadcasts_S3x64x1x128_S3x64x64x128 (ix4 b i j r)
        - broadcastTo S3x64x64x128 (shapeCast S3x1x64x128 v shapeCasts_S3x64x128_S3x1x64x128)
          broadcasts_S3x1x64x128_S3x64x64x128 (ix4 b i j r))
      * (broadcastTo S3x64x64x128 (shapeCast S3x64x1x128 v shapeCasts_S3x64x128_S3x64x1x128)
          broadcasts_S3x64x1x128_S3x64x64x128 (ix4 b i j r)
        - broadcastTo S3x64x64x128 (shapeCast S3x1x64x128 v shapeCasts_S3x64x128_S3x1x64x128)
          broadcasts_S3x1x64x128_S3x64x64x128 (ix4 b i j r))
      = (v (ix3 b i r) - v (ix3 b j r)) * (v (ix3 b i r) - v (ix3 b j r))
  rw [col_apply v b i j r, row_apply v b i j r]

end Cert.ReferenceIdeal.Pay

end
-- ==== Proof.RefPay.lean ====
/-
  The reference's body, read at one entry of the row it stores: the two stretches (squashed projections; difference
  distances laid out in lanes) composed.  Lane (b·64 + i)·64 + j is the specification's `pairDist` of tokens i and j
  of the block's sentence b.
-/
import proofs.«139934_g2000303751998475_pallasbulk_1269_22_alg».proof.Proof.RefPayA
import proofs.«139934_g2000303751998475_pallasbulk_1269_22_alg».proof.Proof.RefPayB

set_option maxRecDepth 65536
noncomputable section

namespace Cert.ReferenceIdeal.Pay

open Cert.ReferenceIdeal Cert.ReferenceIdeal.Gen Idealize.ShloMosaic Idealize.ShloMosaic.ValueIdx
open scoped BigOperators

/-- The body's one payload is the two stretches in a row. -/
theorem pay_split (x0 : Vec Ideal S3x64x128 .f32) (x1 : Vec Ideal S128x128 .f32) :
    k0_pay1 (F := Ideal) x0 x1 = distances (squashed (F := Ideal) x0 x1) := rfl

/-- Lane k = (b·64 + i)·64 + j of the stored row is the distance between tokens i and j of the block's sentence b. -/
theorem pay_apply (x0 : Vec Ideal S3x64x128 .f32) (x1 : Vec Ideal S128x128 .f32) (b : Fin 3) (i j : Fin 64)
    (k : Fin 12288) (hk : k.val = (b.val * 64 + i.val) * 64 + j.val) :
    k0_pay1 (F := Ideal) x0 x1 (ix3 (0 : Fin 1) (0 : Fin 1) k)
      = Cert.PairDist.pairDist (fun l => x0 (ix3 b i l)) (fun l => x0 (ix3 b j l)) (fun l r => x1 (ix2 l r)) := by
  rw [pay_split, distances_apply _ b i j k hk]
  unfold Cert.PairDist.pairDist
  refine congrArg₂ Cert.PairDist.diffDist (funext fun r => squashed_apply x0 x1 b i r) (funext fun r => squashed_apply x0 x1 b j r)

end Cert.ReferenceIdeal.Pay

end
-- ==== Proof.RefBlocks.lean ====
/-
  Inside the reference's pipeline: what its output array holds when the last point has written back.

  Point t loads rows 3t, 3t+1, 3t+2 of the padded sentences (block index (t, 0, 0) of blocks [3, 64, 128]) and all the
  weights, and writes row t of the [342, 1, 12288] array (block index (t, 0, 0) of blocks [1, 1, 12288]).  Lane
  k = (b·64 + i)·64 + j of the stored row is the distance between tokens i and j of the block's sentence b, that is of
  padded sentence 3t + b: row t of the lane layout.  The 342 rows tile the array.
-/
import proofs.«139934_g2000303751998475_pallasbulk_1269_22_alg».proof.Proof.Gen.ReferenceIdeal.Frame
import proofs.«139934_g2000303751998475_pallasbulk_1269_22_alg».proof.Proof.RefPay
import proofs.«139934_g2000303751998475_pallasbulk_1269_22_alg».proof.Proof.Lanes
import Idealize.ShloMosaic.Lib.Pipeline.Value

set_option maxRecDepth 16384

noncomputable section

namespace Cert.ReferenceIdeal.Whole

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The loads' and the store's offsets are zero on every axis. -/
theorem off3_zero : (![0, 0, 0] : Fin 3 → Nat) = fun _ => 0 := funext fun a => by fin_cases a <;> rfl
theorem off2_zero : (![0, 0] : Fin 2 → Nat) = fun _ => 0 := funext fun a => by fin_cases a <;> rfl

/-- The printed index maps over the grid: point t reads block (t, 0, 0) of the padded sentences and block (0, 0) of the
    weights, and writes block (t, 0, 0) of the rows. -/
theorem idx_facts : ∀ t : Fin cfg0.N, win0_0.index t (0 : Fin 3) = t.val
    ∧ win0_0.index t (1 : Fin 3) = 0
    ∧ win0_0.index t (2 : Fin 3) = 0
    ∧ win0_1.index t (0 : Fin 2) = 0
    ∧ win0_1.index t (1 : Fin 2) = 0
    ∧ win0_2.index t (0 : Fin 3) = t.val
    ∧ win0_2.index t (1 : Fin 3) = 0
    ∧ win0_2.index t (2 : Fin 3) = 0 :=
  (by decide +kernel : ∀ t : Fin grid0.N, _)

/-- An entry of the lane layout, named by the values of its row and lane coordinates. -/
theorem lanes_at (P : S1026x64x128.Idx → EReal) (W : S128x128.Idx → EReal) (i : S342x1x12288.Idx) (t : Fin 342)
    (k : Fin 12288) (h0 : (i 0).val = t.val) (h2 : (i 2).val = k.val) :
    Cert.PairDist.lanes P W i = Cert.PairDist.lanesAt P W t k := by
  have e0 : i 0 = t := Fin.ext h0
  have e2 : i 2 = k := Fin.ext h2
  show Cert.PairDist.lanesAt P W (i 0) (i 2) = _
  rw [e0, e2]

/-- ONE ROW: when the block of three sentences x0 is sentences 3t, 3t+1, 3t+2 of P and the weights' block x1 is W, lane
    k = (b·64 + i)·64 + j of the body's row is entry (t, k) of the lane layout: b = k / 4096 names the sentence 3t + b,
    i = k / 64 % 64 and j = k % 64 the two tokens. -/
theorem row_eq (x0 : Vec Ideal S3x64x128 .f32) (x1 : Vec Ideal S128x128 .f32) (P : S1026x64x128.Idx → EReal)
    (W : S128x128.Idx → EReal) (t : Fin 342)
    (h0 : ∀ (b : Fin 3) (a : Fin 64) (l : Fin 128),
      x0 (ix3 b a l) = P (ix3 (⟨3 * t.val + b.val, by have := t.isLt; have := b.isLt; omega⟩ : Fin 1026) a l))
    (h1 : ∀ (l r : Fin 128), x1 (ix2 l r) = W (ix2 l r)) (k : Fin 12288) :
    k0_pay1 (F := Ideal) x0 x1 (ix3 (0 : Fin 1) (0 : Fin 1) k) = Cert.PairDist.lanesAt P W t k := by
  have hk : k.val < 12288 := k.isLt
  refine (Cert.ReferenceIdeal.Pay.pay_apply x0 x1 (⟨k.val / 4096, by omega⟩ : Fin 3) (Cert.PairDist.laneI k)
    (Cert.PairDist.laneJ k) k (by show k.val = (k.val / 4096 * 64 + k.val / 64 % 64) * 64 + k.val % 64; omega)).trans ?_
  unfold Cert.PairDist.lanesAt
  have ei : (fun l => x0 (ix3 (⟨k.val / 4096, by omega⟩ : Fin 3) (Cert.PairDist.laneI k) l))
      = fun l => P (ix3 (Cert.PairDist.laneSent t k) (Cert.PairDist.laneI k) l) := funext fun l => h0 _ _ l
  have ej : (fun l => x0 (ix3 (⟨k.val / 4096, by omega⟩ : Fin 3) (Cert.PairDist.laneJ k) l))
      = fun l => P (ix3 (Cert.PairDist.laneSent t k) (Cert.PairDist.laneJ k) l) := funext fun l => h0 _ _ l
  have ew : (fun l r => x1 (ix2 l r)) = fun l r => W (ix2 l r) := funext fun l => funext fun r => h1 l r
  rw [ei, ej, ew]

/-- The sentences' block at point t is sentences 3t, 3t+1, 3t+2 of the padded array: a block's coordinate is the block
    index times the block's extent plus the coordinate inside the block. -/
theorem sent_block (c : Dev nD) (t : Fin cfg0.N) (b : Fin 3) (a : Fin 64) (l : Fin 128) (s : Fin 1026)
    (hs : s.val = 3 * t.val + b.val) :
    (iblk m c 0 t : Vec Ideal S3x64x128 .f32) (ix3 b a l) = (V m c main_v0 : S1026x64x128.Idx → EReal) (ix3 s a l) := by
  obtain ⟨e0, e1, e2, -⟩ := idx_facts t
  show (V m c main_v0 : S1026x64x128.Idx → EReal) (((cfg0.win 0).blk t).view.emb (ix3 b a l)) = _
  refine congrArg (V m c main_v0 : S1026x64x128.Idx → EReal) ?_
  funext d
  apply Fin.ext
  match d with
  | ⟨0, _⟩ => show win0_0.index t (0 : Fin 3) * 3 + 1 * b.val = s.val; omega
  | ⟨1, _⟩ => show win0_0.index t (1 : Fin 3) * 64 + 1 * a.val = a.val; omega
  | ⟨2, _⟩ => show win0_0.index t (2 : Fin 3) * 128 + 1 * l.val = l.val; omega

/-- The weights' block at any point is the weights whole. -/
theorem weights_block (c : Dev nD) (t : Fin cfg0.N) (l r : Fin 128) :
    (iblk m c 1 t : Vec Ideal S128x128 .f32) (ix2 l r) = (V m c main_arg1 : S128x128.Idx → EReal) (ix2 l r) := by
  obtain ⟨-, -, -, e0, e1, -⟩ := idx_facts t
  show (V m c main_arg1 : S128x128.Idx → EReal) (((cfg0.win 1).blk t).view.emb (ix2 l r)) = _
  refine congrArg (V m c main_arg1 : S128x128.Idx → EReal) ?_
  funext d
  apply Fin.ext
  match d with
  | ⟨0, _⟩ => show win0_1.index t (0 : Fin 2) * 128 + 1 * l.val = l.val; omega
  | ⟨1, _⟩ => show win0_1.index t (1 : Fin 2) * 128 + 1 * r.val = r.val; omega

/-- The grid has 342 points: a point is a row. -/
theorem point_lt (t : Fin cfg0.N) : t.val < 342 := by have h : cfg0.N = 342 := N_0; have := t.isLt; omega

/-- Lane k of what the body leaves at point t is entry (t, k) of the lane layout of the arrays as the region finds them. -/
theorem row_block (c : Dev nD) (t : Fin cfg0.N) (k : Fin 12288) :
    k0_pay1 (F := Ideal) (iblk m c 0 t) (iblk m c 1 t) (ix3 (0 : Fin 1) (0 : Fin 1) k)
      = Cert.PairDist.lanesAt (V m c main_v0) (V m c main_arg1) (⟨t.val, point_lt t⟩ : Fin 342) k :=
  row_eq (iblk m c 0 t) (iblk m c 1 t) (V m c main_v0) (V m c main_arg1) (⟨t.val, point_lt t⟩ : Fin 342)
    (fun b a l => sent_block m c t b a l _ rfl) (fun l r => weights_block m c t l r) k

/-- WHAT POINT t WRITES BACK is row t of the lane layout, read through the point's block. -/
theorem flushed_eq (c : Dev nD) (t : Fin cfg0.N) :
    (dats m 0 c).flushed 2 t
      = ((cfg0.win 2).blk t).view.read (Elt Ideal) (Cert.PairDist.lanes (V m c main_v0) (V m c main_arg1)) := by
  show (cfg0.win 2).cut (grid0.coords t) ((dats m 0 c).after 2 t) = _
  rw [after0_2]
  unfold out0_2
  rw [View.canon_unit_zero off3_zero]
  simp only [View.ld_unit_zero (S := S3x64x128) off3_zero, View.ld_unit_zero (S := S128x128) off2_zero]
  obtain ⟨-, -, -, -, -, e0, e1, e2⟩ := idx_facts t
  refine funext fun (y : S1x1x12288.Idx) => ?_
  obtain ⟨z0, z1, k, rfl⟩ : ∃ (z0 z1 : Fin 1) (k : Fin 12288), y = ix3 z0 z1 k := ⟨y 0, y 1, y 2, eq_ix3 y⟩
  obtain rfl : z0 = 0 := Subsingleton.elim _ _
  obtain rfl : z1 = 0 := Subsingleton.elim _ _
  show k0_pay1 (F := Ideal) (iblk m c 0 t) (iblk m c 1 t) (ix3 (0 : Fin 1) (0 : Fin 1) k)
    = Cert.PairDist.lanes (V m c main_v0) (V m c main_arg1) (((cfg0.win 2).blk t).view.emb (ix3 (0 : Fin 1) (0 : Fin 1) k))
  refine (row_block m c t k).trans (lanes_at _ _ _ _ _ ?_ ?_).symm
  · show win0_2.index t (0 : Fin 3) * 1 + 1 * 0 = t.val; omega
  · show win0_2.index t (2 : Fin 3) * 12288 + 1 * k.val = k.val; omega

/-- An index of the rows' array is in point t's block iff each coordinate is in the block's range on its axis. -/
theorem mem_blk (t : Fin cfg0.N) (i : S342x1x12288.Idx) :
    i ∈ ((cfg0.win 2).blk t).view.set ↔ ∀ a : Fin 3, win0_2.index t a * S1x1x12288.size a ≤ (i a).val
      ∧ (i a).val < win0_2.index t a * S1x1x12288.size a + S1x1x12288.size a := by
  show i ∈ ((View.whole main_v1).slice (win0_2.rect t)).set ↔ _
  rw [View.set_slice_whole, Rect.mem_set_unit]
  exact Iff.rfl

/-- The 342 rows tile the array: entry (r, 0, k) is in the block of the point r. -/
theorem cover (i : S342x1x12288.Idx) :
    ∃ t : Fin cfg0.N, (cfg0.win 2).flush t = true ∧ i ∈ ((cfg0.win 2).blk t).view.set := by
  have hi0 : (i 0).val < 342 := (i 0).isLt
  have hi1 : (i 1).val < 1 := (i 1).isLt
  have hi2 : (i 2).val < 12288 := (i 2).isLt
  have hN : cfg0.N = 342 := N_0
  obtain ⟨t, ht⟩ : ∃ t : Fin cfg0.N, t.val = (i 0).val := ⟨⟨(i 0).val, by omega⟩, rfl⟩
  obtain ⟨-, -, -, -, -, e0, e1, e2⟩ := idx_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 12288 ≤ (i 2).val ∧ (i 2).val < win0_2.index t (2 : Fin 3) * 12288 + 12288; omega

/-- THE ARRAY after the pipeline: the lane layout of the padded sentences and the weights as the region finds them. -/
theorem final (c : Dev nD) :
    (dats m 0 c).arrAt 2 cfg0.N = Cert.PairDist.lanes (V m c main_v0) (V m c main_arg1) :=
  (dats m 0 c).arrAt_eq_of_cover 2 _ (fun t _ => flushed_eq m c t) cover

end Cert.ReferenceIdeal.Whole

end
-- ==== Proof.RefTail.lean ====
/-
  Around the reference's pipeline: the host operations.

  Before the region @main pads the sentences with two zero sentences: padded sentence s < 1024 is sentence s.  After it
  the [342, 1, 12288] array is reshaped to [1026, 64, 64] — entry (s, i, j) is lane (s mod 3 · 64 + i) · 64 + j of row
  s / 3, which speaks of padded sentence 3 · (s / 3) + s mod 3 = s and tokens i, j — and cut to the first 1024 sentences.
  So the result's entry (s, i, j) is the distance between tokens i and j of sentence s of the ORIGINAL array.
-/
import proofs.«139934_g2000303751998475_pallasbulk_1269_22_alg».proof.Proof.Gen.ReferenceIdeal.Frame
import proofs.«139934_g2000303751998475_pallasbulk_1269_22_alg».proof.Proof.RefBlocks
import proofs.«139934_g2000303751998475_pallasbulk_1269_22_alg».proof.Proof.Lanes
import Idealize.ShloMosaic.Lib.Pipeline.Value
import Idealize.ShloMosaic.Lib.KernelVsHost
import Idealize.ShloMosaic.Lib.StableHlo.Run

set_option maxRecDepth 16384

noncomputable section

namespace Cert.ReferenceIdeal.Whole

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The lane layout reshaped to [1026, 64, 64] and cut to the first 1024 sentences, over padded sentences P whose
    first 1024 are the sentences X: entry (s, i, j) is read at (s, i, j) of the reshaped array (the cut starts at 0),
    that is at row s / 3 and lane (s mod 3 · 64 + i) · 64 + j of the rows (both have row-major position
    (s · 64 + i) · 64 + j); that lane speaks of padded sentence 3 · (s / 3) + s mod 3 = s and of tokens i and j. -/
theorem tail_cut_reshape_lanes (P : S1026x64x128.Idx → EReal) (W : S128x128.Idx → EReal) (X : S1024x64x128.Idx → EReal)
    (hP : ∀ (s : Fin 1024) (a : Fin 64) (l : Fin 128),
      P (ix3 (⟨s.val, by have := s.isLt; omega⟩ : Fin 1026) a l) = X (ix3 s a l))
    (hc : S342x1x12288.ShapeCasts S1026x64x64) (hs : S1026x64x64.Slices ![0, 0, 0] S1024x64x64) :
    extractStridedSlice S1024x64x64 ![0, 0, 0] (shapeCast S1026x64x64 (Cert.PairDist.lanes P W) hc) hs
      = Cert.PairDist.G X W := by
  funext o
  obtain ⟨s, i, j, rfl⟩ : ∃ (s : Fin 1024) (i j : Fin 64), o = ix3 s i j := ⟨o 0, o 1, o 2, eq_ix3 o⟩
  have hs3 := s.isLt
  have hi := i.isLt
  have hj := j.isLt
  -- the cut at offset 0 reads (s, i, j) of the [1026, 64, 64] array
  refine (extractStridedSlice_apply ![0, 0, 0] _ hs (ix3 s i j)
    (ix3 (⟨s.val, by omega⟩ : Fin 1026) i j) ?_).trans ?_
  · intro a
    match a with
    | ⟨0, _⟩ => exact (Nat.zero_add _).symm
    | ⟨1, _⟩ => exact (Nat.zero_add _).symm
    | ⟨2, _⟩ => exact (Nat.zero_add _).symm
  -- the reshape reads the entry of the same row-major position
  refine (shapeCast_apply (Cert.PairDist.lanes P W) hc (ix3 (⟨s.val, by omega⟩ : Fin 1026) i j)
    (ix3 (⟨s.val / 3, by omega⟩ : Fin 342) (0 : Fin 1)
      (⟨(s.val % 3 * 64 + i.val) * 64 + j.val, by omega⟩ : Fin 12288)) ?_).trans ?_
  · rw [Shape.rowMajor_val_three, Shape.rowMajor_val_three]
    show (s.val / 3 * 1 + 0) * 12288 + ((s.val % 3 * 64 + i.val) * 64 + j.val) = (s.val * 64 + i.val) * 64 + j.val
    omega
  -- that lane's sentence and tokens
  have e1 : Cert.PairDist.laneSent (⟨s.val / 3, by omega⟩ : Fin 342)
      (⟨(s.val % 3 * 64 + i.val) * 64 + j.val, by omega⟩ : Fin 12288) = (⟨s.val, by omega⟩ : Fin 1026) :=
    Fin.ext (by show 3 * (s.val / 3) + ((s.val % 3 * 64 + i.val) * 64 + j.val) / 4096 = s.val; omega)
  have e2 : Cert.PairDist.laneI (⟨(s.val % 3 * 64 + i.val) * 64 + j.val, by omega⟩ : Fin 12288) = i :=
    Fin.ext (by show ((s.val % 3 * 64 + i.val) * 64 + j.val) / 64 % 64 = i.val; omega)
  have e3 : Cert.PairDist.laneJ (⟨(s.val % 3 * 64 + i.val) * 64 + j.val, by omega⟩ : Fin 12288) = j :=
    Fin.ext (by show ((s.val % 3 * 64 + i.val) * 64 + j.val) % 64 = j.val; omega)
  rw [Cert.PairDist.lanes_apply, Cert.PairDist.G_apply]
  unfold Cert.PairDist.lanesAt Cert.PairDist.Gat
  rw [e1, e2, e3]
  simp only [hP]

/-- The sentences as the region finds them: the argument's sentences with two sentences of the converted zero after
    them. -/
theorem tail_padded_eq (c : Dev nD) :
    (V m c main_v0 : S1026x64x128.Idx → EReal)
      = pad S1026x64x128 ![0, 0, 0] ![2, 0, 0] ![0, 0, 0] (m ((c.tc : Thread nD τ).loc main_arg0))
          (sitofp (F := Ideal) .f32 (constantI S_ 32 0#32)) pads_S1024x64x128_S1026x64x128_020_000_000 h_S_ := by
  dsimp only [Gen.V, Gen.V0]
  simp only [Gen.hostOps0, Gen.hostOps0_1, List.flatten_cons, List.flatten_nil, List.append_nil, List.cons_append,
    List.nil_append]
  after_results
  rfl

/-- Padded sentence s < 1024 is sentence s of the argument: on every axis the index lies in the copied box (low
    padding 0, no interior padding). -/
theorem tail_padded_at (c : Dev nD) (s : Fin 1024) (a : Fin 64) (l : Fin 128) :
    (V m c main_v0 : S1026x64x128.Idx → EReal) (ix3 (⟨s.val, by have := s.isLt; omega⟩ : Fin 1026) a l)
      = (m ((c.tc : Thread nD τ).loc main_arg0) : S1024x64x128.Idx → EReal) (ix3 s a l) := by
  refine (congrFun (tail_padded_eq m c) _).trans ?_
  refine pad_apply_of_inside ![0, 0, 0] ![2, 0, 0] ![0, 0, 0] _ _ pads_S1024x64x128_S1026x64x128_020_000_000 h_S_ _
    (ix3 s a l) ?_
  intro b
  match b with
  | ⟨0, _⟩ => show s.val = 0 + s.val * (0 + 1); omega
  | ⟨1, _⟩ => show a.val = 0 + a.val * (0 + 1); omega
  | ⟨2, _⟩ => show l.val = 0 + l.val * (0 + 1); omega

/-- THE RESULT after the host operations that follow the pipeline: the pairwise-distance array of the arguments. -/
theorem tail_eq (c : Dev nD) :
    Pipeline.afterTail₀ cfgs (dats m) 0 (V0 m) [hostOps1] c main_v3
      = Cert.PairDist.G (m ((c.tc : Thread nD τ).loc main_arg0)) (m ((c.tc : Thread nD τ).loc main_arg1)) := by
  unfold Pipeline.afterTail₀
  show StableHlo.after hostOps1 _ (Proc.devRef .tc main_v3) = _
  after_results
  -- what the pipeline left in its output array: the lane layout over the padded sentences and the weights
  have hA : Pipeline.withArrays (cfgs 0).spec c (V0 m c) (fun w => (dats m 0 c).arrAt w (cfgs 0).N)
        (Proc.devRef .tc main_v1)
      = Cert.PairDist.lanes (V m c main_v0) (m ((c.tc : Thread nD τ).loc main_arg1)) :=
    ((Pipeline.withArrays_arr spec0 launch0.win.arr_inj c _ _ 2).trans (final m c)).trans
      (congrArg (Cert.PairDist.lanes (V m c main_v0)) (V_main_arg1 m c))
  -- the reshape, then the cut, of that array
  rw [hA]
  exact tail_cut_reshape_lanes (V m c main_v0) (m ((c.tc : Thread nD τ).loc main_arg1))
    (m ((c.tc : Thread nD τ).loc main_arg0)) (tail_padded_at m c) _ _

end Cert.ReferenceIdeal.Whole

end
-- ==== Proof.RefValue.lean ====
/-
  The reference's program as a whole: what its result array holds after the run.

  @main pads the sentences with two zero sentences to 1026 = 342 · 3; grid point t loads sentences 3t, 3t+1, 3t+2 of the
  padded array and stores row t of a [342, 1, 12288] array, lane (b·64 + i)·64 + j holding the distance between tokens
  i and j of sentence 3t + b.  The 342 rows tile the array; reshaped to [1026, 64, 64] and cut to the first 1024
  sentences, entry (s, i, j) is the distance for sentence s of the ORIGINAL array, which the padding left in place.
  Here the run's post is read: the result buffer is no array of the pipeline, so it holds what the host operations
  after the region leave; the sentences are no array of the pipeline either (the padded copy is), the weights are.
-/
import proofs.«139934_g2000303751998475_pallasbulk_1269_22_alg».proof.Proof.Gen.ReferenceIdeal.Frame
import proofs.«139934_g2000303751998475_pallasbulk_1269_22_alg».proof.Proof.RefTail
import proofs.«139934_g2000303751998475_pallasbulk_1269_22_alg».proof.Proof.Spec
import Idealize.ShloMosaic.Lib.Pipeline.Value

set_option maxRecDepth 16384

noncomputable section

namespace Cert.ReferenceIdeal.Whole

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The run: the result is the pairwise-distance array of the arguments, which end unchanged. -/
theorem run :
    θ_run defs (onTc (τ := τ) (main (F := Ideal))) ⟨m, fun _ => 0, ρ⟩ fun r => ∀ c : Dev nD,
      r.2.mem ((c.tc : Thread nD τ).loc main_v3) = Cert.PairDist.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 (by decide) (by decide))).trans (tail_eq m c),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c)))⟩)
    (run_main m ρ)

end Cert.ReferenceIdeal.Whole

end
-- ==== Proof.lean ====
/-
  Pairwise token distances of log-normalised, projected and squashed sentences: a kernel that goes through the
  Gram matrix, against a reference that subtracts and squares.

  Both programs are one pipelined launch with host operations around it.  Each one's result array is read off its
  run as ONE function of the two arguments (Proof/KernelValue.lean, Proof/RefValue.lean), entry by entry through
  the body's arithmetic (Proof/KernelPay.lean, Proof/RefPay.lean), and the two functions are the same on real
  entries (Proof/Spec.lean: the tanh form of the logistic function, the binomial formula, a sum against a row of
  the identity matrix, and an idle clamp under the root).  The inputs are real because the precondition says
  they are finite (Proof/Finite.lean).  The idealisation rewrote nothing, so it is preserved trivially.
-/
import proofs.«139934_g2000303751998475_pallasbulk_1269_22_alg».proof.Defs
import proofs.«139934_g2000303751998475_pallasbulk_1269_22_alg».proof.Proof.Gen.Kernel
import proofs.«139934_g2000303751998475_pallasbulk_1269_22_alg».proof.Proof.Gen.Kernel.Skeleton
import proofs.«139934_g2000303751998475_pallasbulk_1269_22_alg».proof.Proof.Gen.Kernel.Launch
import proofs.«139934_g2000303751998475_pallasbulk_1269_22_alg».proof.Proof.Gen.Kernel.Points
import proofs.«139934_g2000303751998475_pallasbulk_1269_22_alg».proof.Proof.Gen.Kernel.Frame
import proofs.«139934_g2000303751998475_pallasbulk_1269_22_alg».proof.Proof.Gen.KernelIdeal
import proofs.«139934_g2000303751998475_pallasbulk_1269_22_alg».proof.Proof.Gen.KernelIdeal.Skeleton
import proofs.«139934_g2000303751998475_pallasbulk_1269_22_alg».proof.Proof.Gen.KernelIdeal.Launch
import proofs.«139934_g2000303751998475_pallasbulk_1269_22_alg».proof.Proof.Gen.KernelIdeal.Points
import proofs.«139934_g2000303751998475_pallasbulk_1269_22_alg».proof.Proof.Gen.KernelIdeal.Frame
import proofs.«139934_g2000303751998475_pallasbulk_1269_22_alg».proof.Proof.Gen.ReferenceIdeal
import proofs.«139934_g2000303751998475_pallasbulk_1269_22_alg».proof.Proof.Gen.ReferenceIdeal.Skeleton
import proofs.«139934_g2000303751998475_pallasbulk_1269_22_alg».proof.Proof.Gen.ReferenceIdeal.Launch
import proofs.«139934_g2000303751998475_pallasbulk_1269_22_alg».proof.Proof.Gen.ReferenceIdeal.Points
import proofs.«139934_g2000303751998475_pallasbulk_1269_22_alg».proof.Proof.Gen.ReferenceIdeal.Frame
import proofs.«139934_g2000303751998475_pallasbulk_1269_22_alg».proof.Proof.Gen.Pre_finite_inputs
import proofs.«139934_g2000303751998475_pallasbulk_1269_22_alg».proof.Proof.Spec
import proofs.«139934_g2000303751998475_pallasbulk_1269_22_alg».proof.Proof.Finite
import proofs.«139934_g2000303751998475_pallasbulk_1269_22_alg».proof.Proof.KernelValue
import proofs.«139934_g2000303751998475_pallasbulk_1269_22_alg».proof.Proof.RefValue
import Idealize.ShloMosaic.Adequacy
import Idealize.ShloMosaic.Init

noncomputable section

namespace Cert.Proof

open Idealize.ShloMosaic Idealize.SL.Sem

/-- The three programs run without fault and leave their arguments in place. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- Both idealised programs end with the pairwise-distance array of the (agreeing, finite) arguments. -/
theorem algebraic : Cert.algebraic_KernelIdeal_ReferenceIdeal := by
  intro m ρ m' ρ' hpre hagree
  have hfin := fun c => Cert.Finite.real_of_pre _ _ (hpre c)
  refine ⟨_, Cert.KernelIdeal.Whole.run m ρ (fun c => (hfin c).1) (fun c => (hfin c).2), ?_⟩
  refine (θ_run Cert.ReferenceIdeal.defs _ _).mono (fun _ h c => ⟨(h c).1.trans ?_, (h c).2⟩)
    (Cert.ReferenceIdeal.Whole.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
